-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x7x400x400 : Shape := ⟨4, ![32, 7, 400, 400]⟩
abbrev S32x64x7 : Shape := ⟨3, ![32, 64, 7]⟩
abbrev S_ : Shape := ⟨0, ![]⟩

class Facts : Prop where
  bcast_S_S32x7x400x400 : S_.BroadcastsInDim S32x7x400x400 (![] : Fin 0 → Fin S32x7x400x400.rank)
  reducesTo_S32x7x400x400_S_d0_1_2_3 : S32x7x400x400.ReducesTo [0, 1, 2, 3] S_
  h_S_ : 0 < S_.numel
  bcast_S_S32x64x7 : S_.BroadcastsInDim S32x64x7 (![] : Fin 0 → Fin S32x64x7.rank)
  reducesTo_S32x64x7_S_d0_1_2 : S32x64x7.ReducesTo [0, 1, 2] S_

variable [Facts]

def fn {F : FTy → Type} [FloatOps F] (main_arg0 : FVec F S32x7x400x400 .f32) (main_arg1 : FVec F S32x64x7 .f32) : IVec S_ 1 :=
  let main_v0 : FVec F S32x7x400x400 .f32 := Host.absf main_arg0
  let main_cst : FVec F S_ .f32 := constant S_ .f32 0x7F800000#32
  let main_v1 : FVec F S32x7x400x400 .f32 := broadcastInDim S32x7x400x400 ![] bcast_S_S32x7x400x400 main_cst
  let main_v2 : IVec S32x7x400x400 1 := cmpf .olt main_v0 main_v1
  let main_c : IVec S_ 1 := constantI S_ 1 1#1
  let main_v3 : IVec S_ 1 := (fun x v => Host.reduce IntOp.andi x v reducesTo_S32x7x400x400_S_d0_1_2_3 h_S_) main_v2 main_c
  let main_v4 : FVec F S32x64x7 .f32 := Host.absf main_arg1
  let main_cst_0 : FVec F S_ .f32 := constant S_ .f32 0x7F800000#32
  let main_v5 : FVec F S32x64x7 .f32 := broadcastInDim S32x64x7 ![] bcast_S_S32x64x7 main_cst_0
  let main_v6 : IVec S32x64x7 1 := cmpf .olt main_v4 main_v5
  let main_c_1 : IVec S_ 1 := constantI S_ 1 1#1
  let main_v7 : IVec S_ 1 := (fun x v => Host.reduce IntOp.andi x v reducesTo_S32x64x7_S_d0_1_2 h_S_) main_v6 main_c_1
  let main_v8 : IVec S_ 1 := andi main_v3 main_v7
  main_v8
-- ==== Kernel.lean ====
abbrev S32x7x400x400 : Shape := ⟨4, ![32, 7, 400, 400]⟩
abbrev S32x64x7 : Shape := ⟨3, ![32, 64, 7]⟩
abbrev S32x64x1 : Shape := ⟨3, ![32, 64, 1]⟩
abbrev S32x64 : Shape := ⟨2, ![32, 64]⟩
abbrev S_ : Shape := ⟨0, ![]⟩
abbrev S32 : Shape := ⟨1, ![32]⟩
abbrev S32x1 : Shape := ⟨2, ![32, 1]⟩
abbrev S7 : Shape := ⟨1, ![7]⟩
abbrev S1x1x7 : Shape := ⟨3, ![1, 1, 7]⟩
abbrev S32x64x7x1 : Shape := ⟨4, ![32, 64, 7, 1]⟩
abbrev S32x64x7x4 : Shape := ⟨4, ![32, 64, 7, 4]⟩
abbrev S32x1x400x400 : Shape := ⟨4, ![32, 1, 400, 400]⟩
abbrev S32x64x4 : Shape := ⟨3, ![32, 64, 4]⟩
abbrev S1x1 : Shape := ⟨2, ![1, 1]⟩
abbrev S1x7x200x400 : Shape := ⟨4, ![1, 7, 200, 400]⟩
abbrev S1x1x200x400 : Shape := ⟨4, ![1, 1, 200, 400]⟩
abbrev S1x1x7x200x400 : Shape := ⟨5, ![1, 1, 7, 200, 400]⟩
abbrev S1 : Shape := ⟨1, ![1]⟩
abbrev S1x1x1x1x1 : Shape := ⟨5, ![1, 1, 1, 1, 1]⟩
abbrev S1x1x1x200x400 : Shape := ⟨5, ![1, 1, 1, 200, 400]⟩

abbrev nBuf : Space → Nat
  | .hbm => 121
  | .vmem => 8
  | .smem => 0
  | _ => 0

abbrev bufTy : (tb : Table) → Fin (tcTables nBuf tb) → BufTy
  | .hbm, ⟨0, _⟩ => ⟨S32x7x400x400, .f32⟩
  | .hbm, ⟨1, _⟩ => ⟨S32x64x7, .f32⟩
  | .hbm, ⟨2, _⟩ => ⟨S32x64x1, .f32⟩
  | .hbm, ⟨3, _⟩ => ⟨S32x64, .f32⟩
  | .hbm, ⟨4, _⟩ => ⟨S_, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S_, .i32⟩
  | .hbm, ⟨9, _⟩ => ⟨S_, .i32⟩
  | .hbm, ⟨10, _⟩ => ⟨S_, .f32⟩
  | .hbm, ⟨11, _⟩ => ⟨S32x64, .f32⟩
  | .hbm, ⟨12, _⟩ => ⟨S32x64, .f32⟩
  | .hbm, ⟨13, _⟩ => ⟨S_, .f32⟩
  | .hbm, ⟨14, _⟩ => ⟨S32x64, .f32⟩
  | .hbm, ⟨15, _⟩ => ⟨S32x64, .f32⟩
  | .hbm, ⟨16, _⟩ => ⟨S32x64, .i32⟩
  | .hbm, ⟨17, _⟩ => ⟨S32x64x1, .f32⟩
  | .hbm, ⟨18, _⟩ => ⟨S32x64, .f32⟩
  | .hbm, ⟨19, _⟩ => ⟨S_, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S_, .i32⟩
  | .hbm, ⟨24, _⟩ => ⟨S_, .i32⟩
  | .hbm, ⟨25, _⟩ => ⟨S_, .f32⟩
  | .hbm, ⟨26, _⟩ => ⟨S32x64, .f32⟩
  | .hbm, ⟨27, _⟩ => ⟨S32x64, .f32⟩
  | .hbm, ⟨28, _⟩ => ⟨S_, .f32⟩
  | .hbm, ⟨29, _⟩ => ⟨S32x64, .f32⟩
  | .hbm, ⟨30, _⟩ => ⟨S32x64, .f32⟩
  | .hbm, ⟨31, _⟩ => ⟨S32x64, .i32⟩
  | .hbm, ⟨32, _⟩ => ⟨S32, .i32⟩
  | .hbm, ⟨33, _⟩ => ⟨S32x1, .i32⟩
  | .hbm, ⟨34, _⟩ => ⟨S32x64, .i32⟩
  | .hbm, ⟨35, _⟩ => ⟨S7, .i32⟩
  | .hbm, ⟨36, _⟩ => ⟨S_, .f32⟩
  | .hbm, ⟨37, _⟩ => ⟨S32x7x400x400, .f32⟩
  | .hbm, ⟨38, _⟩ => ⟨S32x64x1, .i32⟩
  | .hbm, ⟨39, _⟩ => ⟨S1x1x7, .i32⟩
  | .hbm, ⟨40, _⟩ => ⟨S32x64x1, .i32⟩
  | .hbm, ⟨41, _⟩ => ⟨S32x64x1, .i32⟩
  | .hbm, ⟨42, _⟩ => ⟨S_, .i32⟩
  | .hbm, ⟨43, _⟩ => ⟨S32x64x1, .i32⟩
  | .hbm, ⟨44, _⟩ => ⟨S32x64x1, .i1⟩
  | .hbm, ⟨45, _⟩ => ⟨S_, .i32⟩
  | .hbm, ⟨46, _⟩ => ⟨S32x64x1, .i32⟩
  | .hbm, ⟨47, _⟩ => ⟨S32x64x1, .i32⟩
  | .hbm, ⟨48, _⟩ => ⟨S32x64x1, .i32⟩
  | .hbm, ⟨49, _⟩ => ⟨S_, .i32⟩
  | .hbm, ⟨50, _⟩ => ⟨S1x1x7, .i32⟩
  | .hbm, ⟨51, _⟩ => ⟨S1x1x7, .i1⟩
  | .hbm, ⟨52, _⟩ => ⟨S_, .i32⟩
  | .hbm, ⟨53, _⟩ => ⟨S1x1x7, .i32⟩
  | .hbm, ⟨54, _⟩ => ⟨S1x1x7, .i32⟩
  | .hbm, ⟨55, _⟩ => ⟨S1x1x7, .i32⟩
  | .hbm, ⟨56, _⟩ => ⟨S_, .i32⟩
  | .hbm, ⟨57, _⟩ => ⟨S32x64x1, .i32⟩
  | .hbm, ⟨58, _⟩ => ⟨S32x64x1, .i1⟩
  | .hbm, ⟨59, _⟩ => ⟨S_, .i32⟩
  | .hbm, ⟨60, _⟩ => ⟨S32x64x1, .i32⟩
  | .hbm, ⟨61, _⟩ => ⟨S32x64x1, .i32⟩
  | .hbm, ⟨62, _⟩ => ⟨S32x64x1, .i32⟩
  | .hbm, ⟨63, _⟩ => ⟨S_, .i32⟩
  | .hbm, ⟨64, _⟩ => ⟨S32x64x1, .i32⟩
  | .hbm, ⟨65, _⟩ => ⟨S32x64x1, .i1⟩
  | .hbm, ⟨66, _⟩ => ⟨S_, .i32⟩
  | .hbm, ⟨67, _⟩ => ⟨S32x64x1, .i32⟩
  | .hbm, ⟨68, _⟩ => ⟨S32x64x1, .i32⟩
  | .hbm, ⟨69, _⟩ => ⟨S32x64x1, .i32⟩
  | .hbm, ⟨70, _⟩ => ⟨S32x64x7, .i32⟩
  | .hbm, ⟨71, _⟩ => ⟨S32x64x7, .i32⟩
  | .hbm, ⟨72, _⟩ => ⟨S32x64x7, .i32⟩
  | .hbm, ⟨73, _⟩ => ⟨S32x64x7, .i32⟩
  | .hbm, ⟨74, _⟩ => ⟨S32x64x7x1, .i32⟩
  | .hbm, ⟨75, _⟩ => ⟨S32x64x7x1, .i32⟩
  | .hbm, ⟨76, _⟩ => ⟨S32x64x7x1, .i32⟩
  | .hbm, ⟨77, _⟩ => ⟨S32x64x7x1, .i32⟩
  | .hbm, ⟨78, _⟩ => ⟨S32x64x7x4, .i32⟩
  | .hbm, ⟨79, _⟩ => ⟨S32x7x400x400, .f32⟩
  | .hbm, ⟨80, _⟩ => ⟨S_, .f32⟩
  | .hbm, ⟨81, _⟩ => ⟨S32x1x400x400, .f32⟩
  | .hbm, ⟨82, _⟩ => ⟨S_, .i32⟩
  | .hbm, ⟨83, _⟩ => ⟨S32x64, .i32⟩
  | .hbm, ⟨84, _⟩ => ⟨S32x64, .i1⟩
  | .hbm, ⟨85, _⟩ => ⟨S_, .i32⟩
  | .hbm, ⟨86, _⟩ => ⟨S32x64, .i32⟩
  | .hbm, ⟨87, _⟩ => ⟨S32x64, .i32⟩
  | .hbm, ⟨88, _⟩ => ⟨S32x64, .i32⟩
  | .hbm, ⟨89, _⟩ => ⟨S_, .i32⟩
  | .hbm, ⟨90, _⟩ => ⟨S32x64, .i32⟩
  | .hbm, ⟨91, _⟩ => ⟨S32x64, .i1⟩
  | .hbm, ⟨92, _⟩ => ⟨S_, .i32⟩
  | .hbm, ⟨93, _⟩ => ⟨S32x64, .i32⟩
  | .hbm, ⟨94, _⟩ => ⟨S32x64, .i32⟩
  | .hbm, ⟨95, _⟩ => ⟨S32x64, .i32⟩
  | .hbm, ⟨96, _⟩ => ⟨S_, .i32⟩
  | .hbm, ⟨97, _⟩ => ⟨S32x64, .i32⟩
  | .hbm, ⟨98, _⟩ => ⟨S32x64, .i1⟩
  | .hbm, ⟨99, _⟩ => ⟨S_, .i32⟩
  | .hbm, ⟨100, _⟩ => ⟨S32x64, .i32⟩
  | .hbm, ⟨101, _⟩ => ⟨S32x64, .i32⟩
  | .hbm, ⟨102, _⟩ => ⟨S32x64, .i32⟩
  | .hbm, ⟨103, _⟩ => ⟨S_, .i32⟩
  | .hbm, ⟨104, _⟩ => ⟨S32x64, .i32⟩
  | .hbm, ⟨105, _⟩ => ⟨S32x64, .i32⟩
  | .hbm, ⟨106, _⟩ => ⟨S32x64x1, .i32⟩
  | .hbm, ⟨107, _⟩ => ⟨S32x64x1, .i32⟩
  | .hbm, ⟨108, _⟩ => ⟨S32x64x1, .i32⟩
  | .hbm, ⟨109, _⟩ => ⟨S32x64x1, .i32⟩
  | .hbm, ⟨110, _⟩ => ⟨S32x64x4, .i32⟩
  | .hbm, ⟨111, _⟩ => ⟨S_, .f32⟩
  | .hbm, ⟨112, _⟩ => ⟨S32x64, .f32⟩
  | .hbm, ⟨113, _⟩ => ⟨S32x1x400x400, .f32⟩
  | .hbm, ⟨114, _⟩ => ⟨S1x1, .f32⟩
  | .hbm, ⟨115, _⟩ => ⟨S1x1, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .local _ .vmem, ⟨0, _⟩ => ⟨S1x7x200x400, .f32⟩
  | .local _ .vmem, ⟨1, _⟩ => ⟨S1x7x200x400, .f32⟩
  | .local _ .vmem, ⟨2, _⟩ => ⟨S1x7x200x400, .f32⟩
  | .local _ .vmem, ⟨3, _⟩ => ⟨S1x7x200x400, .f32⟩
  | .local _ .vmem, ⟨4, _⟩ => ⟨S1x1x200x400, .f32⟩
  | .local _ .vmem, ⟨5, _⟩ => ⟨S1x1x200x400, .f32⟩
  | .local _ .vmem, ⟨6, _⟩ => ⟨S1x1, .f32⟩
  | .local _ .vmem, ⟨7, _⟩ => ⟨S1x1, .f32⟩
  | _, _ => ⟨S32x7x400x400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_c_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_11 : Ref sig .tc := ⟨.hbm, 63, rfl⟩
abbrev main_v38 : Ref sig .tc := ⟨.hbm, 64, rfl⟩
abbrev main_v39 : Ref sig .tc := ⟨.hbm, 65, rfl⟩
abbrev main_c_12 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_13 : Ref sig .tc := ⟨.hbm, 80, rfl⟩
abbrev main_v53 : Ref sig .tc := ⟨.hbm, 81, rfl⟩
abbrev main_c_14 : Ref sig .tc := ⟨.hbm, 82, rfl⟩
abbrev main_v54 : Ref sig .tc := ⟨.hbm, 83, rfl⟩
abbrev main_v55 : Ref sig .tc := ⟨.hbm, 84, rfl⟩
abbrev main_c_15 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_16 : Ref sig .tc := ⟨.hbm, 89, rfl⟩
abbrev main_v59 : Ref sig .tc := ⟨.hbm, 90, rfl⟩
abbrev main_v60 : Ref sig .tc := ⟨.hbm, 91, rfl⟩
abbrev main_c_17 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_18 : Ref sig .tc := ⟨.hbm, 96, rfl⟩
abbrev main_v64 : Ref sig .tc := ⟨.hbm, 97, rfl⟩
abbrev main_v65 : Ref sig .tc := ⟨.hbm, 98, rfl⟩
abbrev main_c_19 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_20 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_21 : Ref sig .tc := ⟨.hbm, 111, rfl⟩
abbrev main_v76 : Ref sig .tc := ⟨.hbm, 112, rfl⟩
abbrev main_v77 : Ref sig .tc := ⟨.hbm, 113, rfl⟩
abbrev main_v78_0 : Ref sig .tc := ⟨.hbm, 114, rfl⟩
abbrev main_v78_1 : Ref sig .tc := ⟨.hbm, 115, rfl⟩
abbrev main_v79 : Ref sig .tc := ⟨.hbm, 116, rfl⟩
abbrev main_v80 : Ref sig .tc := ⟨.hbm, 117, rfl⟩
abbrev main_cst_22 : Ref sig .tc := ⟨.hbm, 118, rfl⟩
abbrev main_v81 : Ref sig .tc := ⟨.hbm, 119, rfl⟩
abbrev main_v82 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x7x200x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x7x200x400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x200x400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  slices_S32x64x7_S32x64x1_0_0_0 : S32x64x7.Slices ![0, 0, 0] S32x64x1
  shapeCasts_S32x64x1_S32x64 : S32x64x1.ShapeCasts S32x64
  bcast_S_S32x64 : S_.BroadcastsInDim S32x64 (![] : Fin 0 → Fin S32x64.rank)
  slices_S32x64x7_S32x64x1_0_0_1 : S32x64x7.Slices ![0, 0, 1] S32x64x1
  bcast_S32_S32x1_0 : S32.BroadcastsInDim S32x1 (![0] : Fin 1 → Fin S32x1.rank)
  bcast_S32x1_S32x64_0_1 : S32x1.BroadcastsInDim S32x64 (![0, 1] : Fin 2 → Fin S32x64.rank)
  bcast_S_S32x7x400x400 : S_.BroadcastsInDim S32x7x400x400 (![] : Fin 0 → Fin S32x7x400x400.rank)
  bcast_S32x64_S32x64x1_0_1 : S32x64.BroadcastsInDim S32x64x1 (![0, 1] : Fin 2 → Fin S32x64x1.rank)
  bcast_S7_S1x1x7_2 : S7.BroadcastsInDim S1x1x7 (![2] : Fin 1 → Fin S1x1x7.rank)
  bcast_S_S32x64x1 : S_.BroadcastsInDim S32x64x1 (![] : Fin 0 → Fin S32x64x1.rank)
  bcast_S_S1x1x7 : S_.BroadcastsInDim S1x1x7 (![] : Fin 0 → Fin S1x1x7.rank)
  bcast_S32x64x1_S32x64x7_0_1_2 : S32x64x1.BroadcastsInDim S32x64x7 (![0, 1, 2] : Fin 3 → Fin S32x64x7.rank)
  bcast_S1x1x7_S32x64x7_0_1_2 : S1x1x7.BroadcastsInDim S32x64x7 (![0, 1, 2] : Fin 3 → Fin S32x64x7.rank)
  bcast_S32x64x7_S32x64x7x1_0_1_2 : S32x64x7.BroadcastsInDim S32x64x7x1 (![0, 1, 2] : Fin 3 → Fin S32x64x7x1.rank)
  concatenates_S32x64x7x1_S32x64x7x1_S32x64x7x1_S32x64x7x1_S32x64x7x4_d3 : Shape.Concatenates [S32x64x7x1, S32x64x7x1, S32x64x7x1, S32x64x7x1] S32x64x7x4 3
  bcast_S_S32x1x400x400 : S_.BroadcastsInDim S32x1x400x400 (![] : Fin 0 → Fin S32x1x400x400.rank)
  concatenates_S32x64x1_S32x64x1_S32x64x1_S32x64x1_S32x64x4_d2 : Shape.Concatenates [S32x64x1, S32x64x1, S32x64x1, S32x64x1] S32x64x4 2
  inb_S1x1_S1x1_0_0 : ∀ a, (![0, 0] : Fin 2 → Nat) a + S1x1.size a ≤ S1x1.size a
  h_S1x1 : 0 < S1x1.numel
  inb_S1x7x200x400_S1x7x200x400_0_0_0_0 : ∀ a, (![0, 0, 0, 0] : Fin 4 → Nat) a + S1x7x200x400.size a ≤ S1x7x200x400.size a
  h_S1x7x200x400 : 0 < S1x7x200x400.numel
  shapeCasts_S1x7x200x400_S1x7x200x400 : S1x7x200x400.ShapeCasts S1x7x200x400
  inb_S1x1x200x400_S1x1x200x400_0_0_0_0 : ∀ a, (![0, 0, 0, 0] : Fin 4 → Nat) a + S1x1x200x400.size a ≤ S1x1x200x400.size a
  h_S1x1x200x400 : 0 < S1x1x200x400.numel
  shapeCasts_S1x1x200x400_S1x1x200x400 : S1x1x200x400.ShapeCasts S1x1x200x400
  broadcasts_S1x1x200x400_S1x7x200x400 : S1x1x200x400.Broadcasts S1x7x200x400
  shapeCasts_S1x1_S1x1 : S1x1.ShapeCasts S1x1
  shapeCasts_S1x7x200x400_S1x1x7x200x400 : S1x7x200x400.ShapeCasts S1x1x7x200x400
  reduces_S1x1x7x200x400_S1 : S1x1x7x200x400.Reduces [1, 2, 3, 4] S1
  shapeCasts_S1_S1x1x1x1x1 : S1.ShapeCasts S1x1x1x1x1
  inpos_S1x1x1x1x1_p0_0_0_0_0 : ∀ a, (![0, 0, 0, 0, 0] : Fin 5 → Nat) a < S1x1x1x1x1.size a
  shapeCasts_S1x1x200x400_S1x1x1x200x400 : S1x1x200x400.ShapeCasts S1x1x1x200x400
  reduces_S1x1x1x200x400_S1 : S1x1x1x200x400.Reduces [1, 2, 3, 4] S1
  shapeCasts_S1x1_S_ : S1x1.ShapeCasts S_
  scatter_S32x7x400x400_S32x64x7x4_S32x64x7_n_0123_0123_3_wf : ScatterDims.WF S32x7x400x400 S32x64x7x4 S32x64x7 [] [0, 1, 2, 3] [0, 1, 2, 3] 3
  scatter_S32x1x400x400_S32x64x4_S32x64_n_0123_0123_2_wf : ScatterDims.WF S32x1x400x400 S32x64x4 S32x64 [] [0, 1, 2, 3] [0, 1, 2, 3] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x7x200x400.size a ≤ S32x7x400x400.size a
  hwx0_0 : ∀ i : grid0.Coords, EltTy.bits .f32 = 32 ∨ (Rect.block (s := S32x7x400x400) S1x7x200x400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x7x200x400.size a ≤ S32x7x400x400.size a
  hwx0_1 : ∀ i : grid0.Coords, EltTy.bits .f32 = 32 ∨ (Rect.block (s := S32x7x400x400) S1x7x200x400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x200x400.size a ≤ S32x1x400x400.size a
  hwx0_2 : ∀ i : grid0.Coords, EltTy.bits .f32 = 32 ∨ (Rect.block (s := S32x1x400x400) S1x1x200x400.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def scatter_S32x7x400x400_S32x64x7x4_S32x64x7_n_0123_0123_3 : ScatterDims S32x7x400x400 S32x64x7x4 S32x64x7 where
  updateWindowDims := []
  insertedWindowDims := [0, 1, 2, 3]
  scatterDimsToOperandDims := [0, 1, 2, 3]
  indexVectorDim := 3
  wf := scatter_S32x7x400x400_S32x64x7x4_S32x64x7_n_0123_0123_3_wf
def scatter_S32x1x400x400_S32x64x4_S32x64_n_0123_0123_2 : ScatterDims S32x1x400x400 S32x64x4 S32x64 where
  updateWindowDims := []
  insertedWindowDims := [0, 1, 2, 3]
  scatterDimsToOperandDims := [0, 1, 2, 3]
  indexVectorDim := 2
  wf := scatter_S32x1x400x400_S32x64x4_S32x64_n_0123_0123_2_wf

abbrev win0_0 : Pipeline.Window sig grid0 :=
  Pipeline.Window.ofSpec (Memref.whole main_arg0) S1x7x200x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S1x7x200x400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v77) S1x1x200x400.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v78_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v78_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x7x400x400 : Shape := ⟨4, ![32, 7, 400, 400]⟩
abbrev S32x64x7 : Shape := ⟨3, ![32, 64, 7]⟩
abbrev S32x64x1 : Shape := ⟨3, ![32, 64, 1]⟩
abbrev S32x64 : Shape := ⟨2, ![32, 64]⟩
abbrev S_ : Shape := ⟨0, ![]⟩
abbrev S32 : Shape := ⟨1, ![32]⟩
abbrev S32x1 : Shape := ⟨2, ![32, 1]⟩
abbrev S7 : Shape := ⟨1, ![7]⟩
abbrev S1x1x7 : Shape := ⟨3, ![1, 1, 7]⟩
abbrev S32x64x7x1 : Shape := ⟨4, ![32, 64, 7, 1]⟩
abbrev S32x64x7x4 : Shape := ⟨4, ![32, 64, 7, 4]⟩
abbrev S32x1x400x400 : Shape := ⟨4, ![32, 1, 400, 400]⟩
abbrev S32x64x4 : Shape := ⟨3, ![32, 64, 4]⟩

abbrev nBuf : Space → Nat
  | .hbm => 136
  | .vmem => 0
  | .smem => 0
  | _ => 0

abbrev hbmTy0_0 (i : Nat) : BufTy := match i % 128 with
  | 0 => ⟨S32x7x400x400, .f32⟩
  | 1 => ⟨S32x64x7, .f32⟩
  | 2 => ⟨S32x64x1, .f32⟩
  | 3 => ⟨S32x64, .f32⟩
  | 4 => ⟨S_, .f32⟩
  | 5 => ⟨S32x64, .f32⟩
  | 6 => ⟨S32x64, .f32⟩
  | 7 => ⟨S32x64, .f32⟩
  | 8 => ⟨S_, .i32⟩
  | 9 => ⟨S_, .i32⟩
  | 10 => ⟨S_, .f32⟩
  | 11 => ⟨S32x64, .f32⟩
  | 12 => ⟨S32x64, .f32⟩
  | 13 => ⟨S_, .f32⟩
  | 14 => ⟨S32x64, .f32⟩
  | 15 => ⟨S32x64, .f32⟩
  | 16 => ⟨S32x64, .i32⟩
  | 17 => ⟨S32x64x1, .f32⟩
  | 18 => ⟨S32x64, .f32⟩
  | 19 => ⟨S_, .f32⟩
  | 20 => ⟨S32x64, .f32⟩
  | 21 => ⟨S32x64, .f32⟩
  | 22 => ⟨S32x64, .f32⟩
  | 23 => ⟨S_, .i32⟩
  | 24 => ⟨S_, .i32⟩
  | 25 => ⟨S_, .f32⟩
  | 26 => ⟨S32x64, .f32⟩
  | 27 => ⟨S32x64, .f32⟩
  | 28 => ⟨S_, .f32⟩
  | 29 => ⟨S32x64, .f32⟩
  | 30 => ⟨S32x64, .f32⟩
  | 31 => ⟨S32x64, .i32⟩
  | 32 => ⟨S32, .i32⟩
  | 33 => ⟨S32x1, .i32⟩
  | 34 => ⟨S32x64, .i32⟩
  | 35 => ⟨S7, .i32⟩
  | 36 => ⟨S_, .f32⟩
  | 37 => ⟨S32x7x400x400, .f32⟩
  | 38 => ⟨S32x64x1, .i32⟩
  | 39 => ⟨S1x1x7, .i32⟩
  | 40 => ⟨S32x64x1, .i32⟩
  | 41 => ⟨S32x64x1, .i32⟩
  | 42 => ⟨S_, .i32⟩
  | 43 => ⟨S32x64x1, .i32⟩
  | 44 => ⟨S32x64x1, .i1⟩
  | 45 => ⟨S_, .i32⟩
  | 46 => ⟨S32x64x1, .i32⟩
  | 47 => ⟨S32x64x1, .i32⟩
  | 48 => ⟨S32x64x1, .i32⟩
  | 49 => ⟨S_, .i32⟩
  | 50 => ⟨S1x1x7, .i32⟩
  | 51 => ⟨S1x1x7, .i1⟩
  | 52 => ⟨S_, .i32⟩
  | 53 => ⟨S1x1x7, .i32⟩
  | 54 => ⟨S1x1x7, .i32⟩
  | 55 => ⟨S1x1x7, .i32⟩
  | 56 => ⟨S_, .i32⟩
  | 57 => ⟨S32x64x1, .i32⟩
  | 58 => ⟨S32x64x1, .i1⟩
  | 59 => ⟨S_, .i32⟩
  | 60 => ⟨S32x64x1, .i32⟩
  | 61 => ⟨S32x64x1, .i32⟩
  | 62 => ⟨S32x64x1, .i32⟩
  | 63 => ⟨S_, .i32⟩
  | 64 => ⟨S32x64x1, .i32⟩
  | 65 => ⟨S32x64x1, .i1⟩
  | 66 => ⟨S_, .i32⟩
  | 67 => ⟨S32x64x1, .i32⟩
  | 68 => ⟨S32x64x1, .i32⟩
  | 69 => ⟨S32x64x1, .i32⟩
  | 70 => ⟨S32x64x7, .i32⟩
  | 71 => ⟨S32x64x7, .i32⟩
  | 72 => ⟨S32x64x7, .i32⟩
  | 73 => ⟨S32x64x7, .i32⟩
  | 74 => ⟨S32x64x7x1, .i32⟩
  | 75 => ⟨S32x64x7x1, .i32⟩
  | 76 => ⟨S32x64x7x1, .i32⟩
  | 77 => ⟨S32x64x7x1, .i32⟩
  | 78 => ⟨S32x64x7x4, .i32⟩
  | 79 => ⟨S32x7x400x400, .f32⟩
  | 80 => ⟨S_, .f32⟩
  | 81 => ⟨S32x1x400x400, .f32⟩
  | 82 => ⟨S_, .i32⟩
  | 83 => ⟨S32x64, .i32⟩
  | 84 => ⟨S32x64, .i1⟩
  | 85 => ⟨S_, .i32⟩
  | 86 => ⟨S32x64, .i32⟩
  | 87 => ⟨S32x64, .i32⟩
  | 88 => ⟨S32x64, .i32⟩
  | 89 => ⟨S_, .i32⟩
  | 90 => ⟨S32x64, .i32⟩
  | 91 => ⟨S32x64, .i1⟩
  | 92 => ⟨S_, .i32⟩
  | 93 => ⟨S32x64, .i32⟩
  | 94 => ⟨S32x64, .i32⟩
  | 95 => ⟨S32x64, .i32⟩
  | 96 => ⟨S_, .i32⟩
  | 97 => ⟨S32x64, .i32⟩
  | 98 => ⟨S32x64, .i1⟩
  | 99 => ⟨S_, .i32⟩
  | 100 => ⟨S32x64, .i32⟩
  | 101 => ⟨S32x64, .i32⟩
  | 102 => ⟨S32x64, .i32⟩
  | 103 => ⟨S_, .i32⟩
  | 104 => ⟨S32x64, .i32⟩
  | 105 => ⟨S32x64, .i32⟩
  | 106 => ⟨S32x64x1, .i32⟩
  | 107 => ⟨S32x64x1, .i32⟩
  | 108 => ⟨S32x64x1, .i32⟩
  | 109 => ⟨S32x64x1, .i32⟩
  | 110 => ⟨S32x64x4, .i32⟩
  | 111 => ⟨S_, .f32⟩
  | 112 => ⟨S32x64, .f32⟩
  | 113 => ⟨S32x1x400x400, .f32⟩
  | 114 => ⟨S32x7x400x400, .f32⟩
  | 115 => ⟨S32x7x400x400, .f32⟩
  | 116 => ⟨S_, .f32⟩
  | 117 => ⟨S32x7x400x400, .f32⟩
  | 118 => ⟨S32x7x400x400, .i1⟩
  | 119 => ⟨S_, .f32⟩
  | 120 => ⟨S32x7x400x400, .f32⟩
  | 121 => ⟨S32x7x400x400, .f32⟩
  | 122 => ⟨S32x7x400x400, .f32⟩
  | 123 => ⟨S_, .f32⟩
  | 124 => ⟨S32x7x400x400, .f32⟩
  | 125 => ⟨S32x7x400x400, .f32⟩
  | 126 => ⟨S32x7x400x400, .f32⟩
  | 127 => ⟨S_, .f32⟩
  | _ => ⟨S32x7x400x400, .f32⟩

abbrev hbmTy0_1 (i : Nat) : BufTy := match i % 128 with
  | 0 => ⟨S_, .f32⟩
  | 1 => ⟨S32x7x400x400, .f32⟩
  | 2 => ⟨S32x7x400x400, .f32⟩
  | 3 => ⟨S_, .f32⟩
  | 4 => ⟨S_, .f32⟩
  | 5 => ⟨S_, .f32⟩
  | 6 => ⟨S_, .f32⟩
  | 7 => ⟨S_, .f32⟩
  | _ => ⟨S32x7x400x400, .f32⟩

abbrev hbmTy (i : Nat) : BufTy := match i / 128 with
  | 0 => hbmTy0_0 i
  | 1 => hbmTy0_1 i
  | _ => ⟨S32x7x400x400, .f32⟩

abbrev bufTy : (tb : Table) → Fin (tcTables nBuf tb) → BufTy
  | .hbm, ⟨i, _⟩ => hbmTy i
  | _, _ => ⟨S32x7x400x400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_c_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_11 : Ref sig .tc := ⟨.hbm, 63, rfl⟩
abbrev main_v38 : Ref sig .tc := ⟨.hbm, 64, rfl⟩
abbrev main_v39 : Ref sig .tc := ⟨.hbm, 65, rfl⟩
abbrev main_c_12 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_13 : Ref sig .tc := ⟨.hbm, 80, rfl⟩
abbrev main_v53 : Ref sig .tc := ⟨.hbm, 81, rfl⟩
abbrev main_c_14 : Ref sig .tc := ⟨.hbm, 82, rfl⟩
abbrev main_v54 : Ref sig .tc := ⟨.hbm, 83, rfl⟩
abbrev main_v55 : Ref sig .tc := ⟨.hbm, 84, rfl⟩
abbrev main_c_15 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_16 : Ref sig .tc := ⟨.hbm, 89, rfl⟩
abbrev main_v59 : Ref sig .tc := ⟨.hbm, 90, rfl⟩
abbrev main_v60 : Ref sig .tc := ⟨.hbm, 91, rfl⟩
abbrev main_c_17 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_18 : Ref sig .tc := ⟨.hbm, 96, rfl⟩
abbrev main_v64 : Ref sig .tc := ⟨.hbm, 97, rfl⟩
abbrev main_v65 : Ref sig .tc := ⟨.hbm, 98, rfl⟩
abbrev main_c_19 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_20 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_21 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_22 : Ref sig .tc := ⟨.hbm, 116, rfl⟩
abbrev main_v80 : Ref sig .tc := ⟨.hbm, 117, rfl⟩
abbrev main_v81 : Ref sig .tc := ⟨.hbm, 118, rfl⟩
abbrev main_cst_23 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_24 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_25 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_26 : Ref sig .tc := ⟨.hbm, 131, rfl⟩
abbrev main_v91 : Ref sig .tc := ⟨.hbm, 132, rfl⟩
abbrev main_cst_27 : Ref sig .tc := ⟨.hbm, 133, rfl⟩
abbrev main_v92 : Ref sig .tc := ⟨.hbm, 134, rfl⟩
abbrev main_v93 : Ref sig .tc := ⟨.hbm, 135, rfl⟩

abbrev nD : Nat := 1
abbrev τ : Topo := Topo.v7x

variable {F : FTy → Type} [FloatOps F]

class Facts₀ : Prop where
  slices_S32x64x7_S32x64x1_0_0_0 : S32x64x7.Slices ![0, 0, 0] S32x64x1
  shapeCasts_S32x64x1_S32x64 : S32x64x1.ShapeCasts S32x64
  bcast_S_S32x64 : S_.BroadcastsInDim S32x64 (![] : Fin 0 → Fin S32x64.rank)
  slices_S32x64x7_S32x64x1_0_0_1 : S32x64x7.Slices ![0, 0, 1] S32x64x1
  bcast_S32_S32x1_0 : S32.BroadcastsInDim S32x1 (![0] : Fin 1 → Fin S32x1.rank)
  bcast_S32x1_S32x64_0_1 : S32x1.BroadcastsInDim S32x64 (![0, 1] : Fin 2 → Fin S32x64.rank)
  bcast_S_S32x7x400x400 : S_.BroadcastsInDim S32x7x400x400 (![] : Fin 0 → Fin S32x7x400x400.rank)
  bcast_S32x64_S32x64x1_0_1 : S32x64.BroadcastsInDim S32x64x1 (![0, 1] : Fin 2 → Fin S32x64x1.rank)
  bcast_S7_S1x1x7_2 : S7.BroadcastsInDim S1x1x7 (![2] : Fin 1 → Fin S1x1x7.rank)
  bcast_S_S32x64x1 : S_.BroadcastsInDim S32x64x1 (![] : Fin 0 → Fin S32x64x1.rank)
  bcast_S_S1x1x7 : S_.BroadcastsInDim S1x1x7 (![] : Fin 0 → Fin S1x1x7.rank)
  bcast_S32x64x1_S32x64x7_0_1_2 : S32x64x1.BroadcastsInDim S32x64x7 (![0, 1, 2] : Fin 3 → Fin S32x64x7.rank)
  bcast_S1x1x7_S32x64x7_0_1_2 : S1x1x7.BroadcastsInDim S32x64x7 (![0, 1, 2] : Fin 3 → Fin S32x64x7.rank)
  bcast_S32x64x7_S32x64x7x1_0_1_2 : S32x64x7.BroadcastsInDim S32x64x7x1 (![0, 1, 2] : Fin 3 → Fin S32x64x7x1.rank)
  concatenates_S32x64x7x1_S32x64x7x1_S32x64x7x1_S32x64x7x1_S32x64x7x4_d3 : Shape.Concatenates [S32x64x7x1, S32x64x7x1, S32x64x7x1, S32x64x7x1] S32x64x7x4 3
  bcast_S_S32x1x400x400 : S_.BroadcastsInDim S32x1x400x400 (![] : Fin 0 → Fin S32x1x400x400.rank)
  concatenates_S32x64x1_S32x64x1_S32x64x1_S32x64x1_S32x64x4_d2 : Shape.Concatenates [S32x64x1, S32x64x1, S32x64x1, S32x64x1] S32x64x4 2
  reducesTo_S32x1x400x400_S_d0_1_2_3 : S32x1x400x400.ReducesTo [0, 1, 2, 3] S_
  h_S_ : 0 < S_.numel
  bcast_S32x1x400x400_S32x7x400x400_0_1_2_3 : S32x1x400x400.BroadcastsInDim S32x7x400x400 (![0, 1, 2, 3] : Fin 4 → Fin S32x7x400x400.rank)
  reducesTo_S32x7x400x400_S_d0_1_2_3 : S32x7x400x400.ReducesTo [0, 1, 2, 3] S_
  scatter_S32x7x400x400_S32x64x7x4_S32x64x7_n_0123_0123_3_wf : ScatterDims.WF S32x7x400x400 S32x64x7x4 S32x64x7 [] [0, 1, 2, 3] [0, 1, 2, 3] 3
  scatter_S32x1x400x400_S32x64x4_S32x64_n_0123_0123_2_wf : ScatterDims.WF S32x1x400x400 S32x64x4 S32x64 [] [0, 1, 2, 3] [0, 1, 2, 3] 2

variable [Facts₀]

def scatter_S32x7x400x400_S32x64x7x4_S32x64x7_n_0123_0123_3 : ScatterDims S32x7x400x400 S32x64x7x4 S32x64x7 where
  updateWindowDims := []
  insertedWindowDims := [0, 1, 2, 3]
  scatterDimsToOperandDims := [0, 1, 2, 3]
  indexVectorDim := 3
  wf := scatter_S32x7x400x400_S32x64x7x4_S32x64x7_n_0123_0123_3_wf
def scatter_S32x1x400x400_S32x64x4_S32x64_n_0123_0123_2 : ScatterDims S32x1x400x400 S32x64x4 S32x64 where
  updateWindowDims := []
  insertedWindowDims := [0, 1, 2, 3]
  scatterDimsToOperandDims := [0, 1, 2, 3]
  indexVectorDim := 2
  wf := scatter_S32x1x400x400_S32x64x4_S32x64_n_0123_0123_2_wf

class Facts : Prop extends Facts₀ where

variable [Facts]
-- ==== Proof.Kernel.Entry.lean ====
/-
  The TensorCore's buffers when the one region of @main is entered, and @main around that region.

  @main is five stretches of host operations (the two grid coordinates of every target — scale, floor, clamp,
  convert —, the index tuples, and the two scatters that build the target map and the mask), the region, and five
  more host operations (the two sums read as scalars, the epsilon added, the quotient). So the region finds every
  buffer at the value the five stretches compute from the launch contents (`V0`), the arguments untouched; the
  region's three inputs are the predictions, the target map and the mask, cut into blocks of half an image
  (`iblk`); its two outputs are one-element accumulators that are zeroed at the first grid point only (`cond0_0`)
  and written back after the last.
-/
import proofs.«151133_j29283087024791_1_alg».proof.Proof.Gen.Kernel.Launch
import proofs.«151133_j29283087024791_1_alg».proof.Proof.Gen.Kernel.Skeleton
import proofs.«151133_j29283087024791_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the launch contents after the five
    stretches of host operations that come before the region. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region CONTINUED BY the five later host operations, the region entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The operations after the region touch the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write none of the region's five arrays: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes the predictions: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor the targets. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run that ends with the region's arrays at what
    the proof data computes and every other buffer as the later operations leave it ends with both arguments as
    launched: the predictions are a staged input, never written back; the targets bypass the region and no
    later operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))), by
    refine ((h c).2 main_arg1 (by decide)).trans ?_
    unfold Pipeline.afterTail₀
    refine (StableHlo.after_of_forall_not_mem (b := Proc.devRef .tc main_arg1) _ _ ?_).trans
      ((Pipeline.withArrays_of_ne spec0 c _ _ main_arg1 (by decide)).trans (V_main_arg1 m c))
    intro op hop
    simp only [List.flatten_cons, List.flatten_nil, List.append_nil, hostOps1, List.mem_cons, List.mem_nil_iff, or_false] at hop
    rcases hop with rfl | rfl | rfl | rfl | rfl <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;>
      exact StableHlo.devRef_ne_of_ne (by decide)⟩) h

/-! ## The reset condition -/

/-- The condition of the body's one conditional, from the grid coordinates: both coordinates are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first grid point only — decided over the 64 points. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs -/

/-- One staging buffer of each output window, through which its contents are stated. -/
abbrev VO0_3 : View sig .tc .vmem S1x1 .f32 := (Memref.whole cc0_stg3_0 : Memref sig .tc .vmem S1x1 .f32).view
abbrev VO0_4 : View sig .tc .vmem S1x1 .f32 := (Memref.whole cc0_stg4_0 : Memref sig .tc .vmem S1x1 .f32).view
/-- Each window's current staging memref at point `t`, as the pipeline passes it to the body, and its wholeness. -/
abbrev ms0_0 (t : Fin cfg0.N) : Memref sig .tc .vmem S1x7x200x400 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7x200x400 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x200x400 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

end Cert.Kernel.Frm

end
-- ==== Proof.Kernel.BodyFirst.lean ====
/-
  The kernel body at the FIRST grid point, where both coordinates are zero and the conditional is taken: the two
  one-element accumulators are zeroed, then the block's masked smooth-L1 sum is added to the first and the block's
  mask sum to the second. Whatever the accumulators held before is overwritten, so nothing is assumed of it. The
  statement is the body's triple on any whole staging memrefs, as a subtype: the stores each accumulator ends
  with (last first) are the witness the symbolic run finds.
-/
import proofs.«151133_j29283087024791_1_alg».proof.Proof.Kernel.Entry

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : cond0_0 i)
    (x0 : Vec F S1x7x200x400 .f32) (x1 : Vec F S1x7x200x400 .f32) (x2 : Vec F S1x1x200x400 .f32) :
    Σ' (L3 : List (View.Piece (Elt F) S1x1 .f32)), { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__loss_kernel i arg2 harg2 arg3 harg3 arg4 harg4 arg5 harg5 arg6 harg6) K } := by
  refine ⟨?_, ?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel.Frm

end
-- ==== Proof.Kernel.BodyLater.lean ====
/-
  The kernel body at every LATER grid point, where the conditional is not taken: each accumulator is read at what
  the point before left in it (the running contents `xo3`, `xo4`), the block's masked smooth-L1 sum is added to the
  first and the block's mask sum to the second. As at the first point the statement is the body's triple on any
  whole staging memrefs, as a subtype whose witness is the stores each accumulator ends with.
-/
import proofs.«151133_j29283087024791_1_alg».proof.Proof.Kernel.BodyFirst

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : ¬cond0_0 i)
    (x0 : Vec F S1x7x200x400 .f32) (x1 : Vec F S1x7x200x400 .f32) (x2 : Vec F S1x1x200x400 .f32) (xo3 : Vec F S1x1 .f32) (xo4 : Vec F S1x1 .f32) :
    Σ' (L3 : List (View.Piece (Elt F) S1x1 .f32)), { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__loss_kernel i arg2 harg2 arg3 harg3 arg4 harg4 arg5 harg5 arg6 harg6) K } := by
  refine ⟨?_, ?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel.Frm

end
-- ==== Proof.Kernel.Accum.lean ====
/-
  What the two accumulators hold after each grid point, the proof data of the region, the body obligation at a
  generic point, the run of @main and the frame.

  The first point zeroes both accumulators and adds its block's sums (`stepA`); every later point adds its block's
  sums to what the point before left (`stepB`): `outsAt0` is that recursion over the 64 points. Neither
  accumulator is written back before the last point, so at a later point its staging buffer still holds what the
  point before left. The inputs' staging buffers hold their blocks at every point. With these the body's run
  applies at each point, and the library's frame run around the region gives: every weakly fair execution of @main
  ends, the two result arrays at the last point's contents, every bypassing buffer as the five later host
  operations leave it — in particular both arguments as launched.
-/
import proofs.«151133_j29283087024791_1_alg».proof.Proof.Kernel.BodyLater

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two accumulators -/

/-- The first point's stores cover each accumulator's one element. -/
theorem cover0_A_3 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : cond0_0 i) (x0 : Vec F S1x7x200x400 .f32) (x1 : Vec F S1x7x200x400 .f32) (x2 : Vec F S1x1x200x400 .f32) (y : S1x1.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S1x1.size (by sl_kernel_rfl) y
theorem cover0_A_4 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : cond0_0 i) (x0 : Vec F S1x7x200x400 .f32) (x1 : Vec F S1x7x200x400 .f32) (x2 : Vec F S1x1x200x400 .f32) (y : S1x1.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S1x1.size (by sl_kernel_rfl) y
/-- What the first point leaves in the loss accumulator and in the mask accumulator: its stores read back. -/
def out0_A_3 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : cond0_0 i) (x0 : Vec F S1x7x200x400 .f32) (x1 : Vec F S1x7x200x400 .f32) (x2 : Vec F S1x1x200x400 .f32) : Vec F S1x1 .f32 :=
  VO0_3.read (Elt F) (VO0_3.writes (Elt F) VO0_3.junk (kernelRun0_A c i arg2 harg2 arg3 harg3 arg4 harg4 arg5 harg5 arg6 harg6 hc0 x0 x1 x2).1)
def out0_A_4 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : cond0_0 i) (x0 : Vec F S1x7x200x400 .f32) (x1 : Vec F S1x7x200x400 .f32) (x2 : Vec F S1x1x200x400 .f32) : Vec F S1x1 .f32 :=
  VO0_4.read (Elt F) (VO0_4.writes (Elt F) VO0_4.junk (kernelRun0_A c i arg2 harg2 arg3 harg3 arg4 harg4 arg5 harg5 arg6 harg6 hc0 x0 x1 x2).2.1)

/-- A later point's stores cover each accumulator's one element. -/
theorem cover0_B_3 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (x0 : Vec F S1x7x200x400 .f32) (x1 : Vec F S1x7x200x400 .f32) (x2 : Vec F S1x1x200x400 .f32) (xo3 : Vec F S1x1 .f32) (xo4 : Vec F S1x1 .f32) (y : S1x1.Idx) :
    ∃ pc ∈ (kernelRun0_B c i arg2 harg2 arg3 harg3 arg4 harg4 arg5 harg5 arg6 harg6 hc0 x0 x1 x2 xo3 xo4).1, y ∈ pc.1.set :=
  View.cover_of_tiledL (kernelRun0_B c i arg2 harg2 arg3 harg3 arg4 harg4 arg5 harg5 arg6 harg6 hc0 x0 x1 x2 xo3 xo4).1 S1x1.size (by sl_kernel_rfl) y
theorem cover0_B_4 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (x0 : Vec F S1x7x200x400 .f32) (x1 : Vec F S1x7x200x400 .f32) (x2 : Vec F S1x1x200x400 .f32) (xo3 : Vec F S1x1 .f32) (xo4 : Vec F S1x1 .f32) (y : S1x1.Idx) :
    ∃ pc ∈ (kernelRun0_B c i arg2 harg2 arg3 harg3 arg4 harg4 arg5 harg5 arg6 harg6 hc0 x0 x1 x2 xo3 xo4).2.1, y ∈ pc.1.set :=
  View.cover_of_tiledL (kernelRun0_B c i arg2 harg2 arg3 harg3 arg4 harg4 arg5 harg5 arg6 harg6 hc0 x0 x1 x2 xo3 xo4).2.1 S1x1.size (by sl_kernel_rfl) y
/-- What a later point leaves in them, over the running contents. -/
def out0_B_3 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (x0 : Vec F S1x7x200x400 .f32) (x1 : Vec F S1x7x200x400 .f32) (x2 : Vec F S1x1x200x400 .f32) (xo3 : Vec F S1x1 .f32) (xo4 : Vec F S1x1 .f32) : Vec F S1x1 .f32 :=
  VO0_3.read (Elt F) (VO0_3.writes (Elt F) VO0_3.junk (kernelRun0_B c i arg2 harg2 arg3 harg3 arg4 harg4 arg5 harg5 arg6 harg6 hc0 x0 x1 x2 xo3 xo4).1)
def out0_B_4 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (x0 : Vec F S1x7x200x400 .f32) (x1 : Vec F S1x7x200x400 .f32) (x2 : Vec F S1x1x200x400 .f32) (xo3 : Vec F S1x1 .f32) (xo4 : Vec F S1x1 .f32) : Vec F S1x1 .f32 :=
  VO0_4.read (Elt F) (VO0_4.writes (Elt F) VO0_4.junk (kernelRun0_B c i arg2 harg2 arg3 harg3 arg4 harg4 arg5 harg5 arg6 harg6 hc0 x0 x1 x2 xo3 xo4).2.1)

/-! ## What the accumulators hold after each point -/

/-- The pair (loss accumulator, mask accumulator) after the first point, at that point's memrefs and blocks. -/
def stepA (c : Dev nD) (t : Fin cfg0.N) (h0 : t.val % 64 = 0) : Vec F S1x1 .f32 × Vec F S1x1 .f32 :=
  (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t),
   out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t))
/-- The pair after a later point, over the pair the point before left. -/
def stepB (c : Dev nD) (t : Fin cfg0.N) (h0 : ¬t.val % 64 = 0) (prev : Vec F S1x1 .f32 × Vec F S1x1 .f32) : Vec F S1x1 .f32 × Vec F S1x1 .f32 :=
  (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) prev.1 prev.2,
   out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) prev.1 prev.2)

/-- THE ACCUMULATION: the pair after the body at position `n`, by recursion on the position. -/
def outsAt0 (c : Dev nD) : (n : ℕ) → n < cfg0.N → Vec F S1x1 .f32 × Vec F S1x1 .f32
  | 0, hn => stepA m c ⟨0, hn⟩ (Nat.zero_mod _)
  | n + 1, hn =>
    if h0 : (n + 1) % 64 = 0 then stepA m c ⟨n + 1, hn⟩ h0
    else stepB m c ⟨n + 1, hn⟩ h0 (outsAt0 c n (Nat.lt_of_succ_lt hn))

theorem outsAt0_A (c : Dev nD) (t : Fin cfg0.N) (h0 : t.val % 64 = 0) :
    outsAt0 m c t.val t.isLt = stepA m c t h0 := by
  obtain ⟨n, hn⟩ := t
  cases n with
  | zero => exact rfl
  | succ n => exact (dif_pos h0).trans rfl

theorem outsAt0_B (c : Dev nD) (t : Fin cfg0.N) (h0 : ¬t.val % 64 = 0) :
    outsAt0 m c t.val t.isLt = stepB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at point `t` each input's buffer at its block and the two
    accumulators' at `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later point each accumulator's staging buffer holds what the body left at the point before: it is written
    back after the last point only. -/
theorem before0_3_B (c : Dev nD) (t : Fin cfg0.N) (h0 : ¬t.val % 64 = 0) (d) :
    (dats m 0 c).before 3 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]
theorem before0_4_B (c : Dev nD) (t : Fin cfg0.N) (h0 : ¬t.val % 64 = 0) (d) :
    (dats m 0 c).before 4 t d = (outsAt0 m c (t.val - 1) (Nat.lt_of_le_of_lt (Nat.sub_le _ _) t.isLt)).2 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their blocks; at the first point the run that overwrites the
    accumulators applies, at a later one the run that reads them at what the point before left; the invariant
    passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 64 = 0
  · rw [outsAt0_A m c t h0]
    unfold stepA out0_A_3 out0_A_4
    dsimp only
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 (F := F) c _ _ _ _ _ _ _ _ _ _ _ _ _ _ _)
    unfold owns; iexists _; isplitr
    swap; · iexact H4
    ipureintro; exact View.read_writes_of_cover _ _ _ _ _ (cover0_A_4 (F := F) c _ _ _ _ _ _ _ _ _ _ _ _ _ _ _)
  · rw [outsAt0_B m c t h0]
    simp only [before0_3_B m c t h0, before0_4_B m c t h0]
    unfold stepB out0_B_3 out0_B_4
    dsimp only
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 (F := F) c _ _ _ _ _ _ _ _ _ _ _ _ _ _ _ _ _)
    unfold owns; iexists _; isplitr
    swap; · iexact H4
    ipureintro; exact View.read_writes_of_cover _ _ _ _ _ (cover0_B_4 (F := F) c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has the region's five
    arrays at what the proof data computes and every other unscoped buffer as the five later operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME, at any instance: @main runs to the end, nothing faults, both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Frm

end
-- ==== Proof.KernelIdeal.Entry.lean ====
/-
  The TensorCore's buffers when the one region of @main is entered, and @main around that region.

  @main is five stretches of host operations (the two grid coordinates of every target — scale, floor, clamp,
  convert —, the index tuples, and the two scatters that build the target map and the mask), the region, and five
  more host operations (the two sums read as scalars, the epsilon added, the quotient). So the region finds every
  buffer at the value the five stretches compute from the launch contents (`V0`), the arguments untouched; the
  region's three inputs are the predictions, the target map and the mask, cut into blocks of half an image
  (`iblk`); its two outputs are one-element accumulators that are zeroed at the first grid point only (`cond0_0`)
  and written back after the last.
-/
import proofs.«151133_j29283087024791_1_alg».proof.Proof.Gen.KernelIdeal.Launch
import proofs.«151133_j29283087024791_1_alg».proof.Proof.Gen.KernelIdeal.Skeleton
import proofs.«151133_j29283087024791_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the launch contents after the five
    stretches of host operations that come before the region. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region CONTINUED BY the five later host operations, the region entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The operations after the region touch the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write none of the region's five arrays: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes the predictions: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor the targets. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run that ends with the region's arrays at what
    the proof data computes and every other buffer as the later operations leave it ends with both arguments as
    launched: the predictions are a staged input, never written back; the targets bypass the region and no
    later operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))), by
    refine ((h c).2 main_arg1 (by decide)).trans ?_
    unfold Pipeline.afterTail₀
    refine (StableHlo.after_of_forall_not_mem (b := Proc.devRef .tc main_arg1) _ _ ?_).trans
      ((Pipeline.withArrays_of_ne spec0 c _ _ main_arg1 (by decide)).trans (V_main_arg1 m c))
    intro op hop
    simp only [List.flatten_cons, List.flatten_nil, List.append_nil, hostOps1, List.mem_cons, List.mem_nil_iff, or_false] at hop
    rcases hop with rfl | rfl | rfl | rfl | rfl <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;>
      exact StableHlo.devRef_ne_of_ne (by decide)⟩) h

/-! ## The reset condition -/

/-- The condition of the body's one conditional, from the grid coordinates: both coordinates are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first grid point only — decided over the 64 points. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs -/

/-- One staging buffer of each output window, through which its contents are stated. -/
abbrev VO0_3 : View sig .tc .vmem S1x1 .f32 := (Memref.whole cc0_stg3_0 : Memref sig .tc .vmem S1x1 .f32).view
abbrev VO0_4 : View sig .tc .vmem S1x1 .f32 := (Memref.whole cc0_stg4_0 : Memref sig .tc .vmem S1x1 .f32).view
/-- Each window's current staging memref at point `t`, as the pipeline passes it to the body, and its wholeness. -/
abbrev ms0_0 (t : Fin cfg0.N) : Memref sig .tc .vmem S1x7x200x400 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7x200x400 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x200x400 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

end Cert.KernelIdeal.Frm

end
-- ==== Proof.KernelIdeal.BodyFirst.lean ====
/-
  The kernel body at the FIRST grid point, where both coordinates are zero and the conditional is taken: the two
  one-element accumulators are zeroed, then the block's masked smooth-L1 sum is added to the first and the block's
  mask sum to the second. Whatever the accumulators held before is overwritten, so nothing is assumed of it. The
  statement is the body's triple on any whole staging memrefs, as a subtype: the stores each accumulator ends
  with (last first) are the witness the symbolic run finds.
-/
import proofs.«151133_j29283087024791_1_alg».proof.Proof.KernelIdeal.Entry

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : cond0_0 i)
    (x0 : Vec F S1x7x200x400 .f32) (x1 : Vec F S1x7x200x400 .f32) (x2 : Vec F S1x1x200x400 .f32) :
    Σ' (L3 : List (View.Piece (Elt F) S1x1 .f32)), { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__loss_kernel i arg2 harg2 arg3 harg3 arg4 harg4 arg5 harg5 arg6 harg6) K } := by
  refine ⟨?_, ?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Frm

end
-- ==== Proof.KernelIdeal.BodyLater.lean ====
/-
  The kernel body at every LATER grid point, where the conditional is not taken: each accumulator is read at what
  the point before left in it (the running contents `xo3`, `xo4`), the block's masked smooth-L1 sum is added to the
  first and the block's mask sum to the second. As at the first point the statement is the body's triple on any
  whole staging memrefs, as a subtype whose witness is the stores each accumulator ends with.
-/
import proofs.«151133_j29283087024791_1_alg».proof.Proof.KernelIdeal.BodyFirst

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : ¬cond0_0 i)
    (x0 : Vec F S1x7x200x400 .f32) (x1 : Vec F S1x7x200x400 .f32) (x2 : Vec F S1x1x200x400 .f32) (xo3 : Vec F S1x1 .f32) (xo4 : Vec F S1x1 .f32) :
    Σ' (L3 : List (View.Piece (Elt F) S1x1 .f32)), { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__loss_kernel i arg2 harg2 arg3 harg3 arg4 harg4 arg5 harg5 arg6 harg6) K } := by
  refine ⟨?_, ?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Frm

end
-- ==== Proof.KernelIdeal.Accum.lean ====
/-
  What the two accumulators hold after each grid point, the proof data of the region, the body obligation at a
  generic point, the run of @main and the frame.

  The first point zeroes both accumulators and adds its block's sums (`stepA`); every later point adds its block's
  sums to what the point before left (`stepB`): `outsAt0` is that recursion over the 64 points. Neither
  accumulator is written back before the last point, so at a later point its staging buffer still holds what the
  point before left. The inputs' staging buffers hold their blocks at every point. With these the body's run
  applies at each point, and the library's frame run around the region gives: every weakly fair execution of @main
  ends, the two result arrays at the last point's contents, every bypassing buffer as the five later host
  operations leave it — in particular both arguments as launched.
-/
import proofs.«151133_j29283087024791_1_alg».proof.Proof.KernelIdeal.BodyLater

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two accumulators -/

/-- The first point's stores cover each accumulator's one element. -/
theorem cover0_A_3 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : cond0_0 i) (x0 : Vec F S1x7x200x400 .f32) (x1 : Vec F S1x7x200x400 .f32) (x2 : Vec F S1x1x200x400 .f32) (y : S1x1.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S1x1.size (by sl_kernel_rfl) y
theorem cover0_A_4 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : cond0_0 i) (x0 : Vec F S1x7x200x400 .f32) (x1 : Vec F S1x7x200x400 .f32) (x2 : Vec F S1x1x200x400 .f32) (y : S1x1.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S1x1.size (by sl_kernel_rfl) y
/-- What the first point leaves in the loss accumulator and in the mask accumulator: its stores read back. -/
def out0_A_3 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : cond0_0 i) (x0 : Vec F S1x7x200x400 .f32) (x1 : Vec F S1x7x200x400 .f32) (x2 : Vec F S1x1x200x400 .f32) : Vec F S1x1 .f32 :=
  VO0_3.read (Elt F) (VO0_3.writes (Elt F) VO0_3.junk (kernelRun0_A c i arg2 harg2 arg3 harg3 arg4 harg4 arg5 harg5 arg6 harg6 hc0 x0 x1 x2).1)
def out0_A_4 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : cond0_0 i) (x0 : Vec F S1x7x200x400 .f32) (x1 : Vec F S1x7x200x400 .f32) (x2 : Vec F S1x1x200x400 .f32) : Vec F S1x1 .f32 :=
  VO0_4.read (Elt F) (VO0_4.writes (Elt F) VO0_4.junk (kernelRun0_A c i arg2 harg2 arg3 harg3 arg4 harg4 arg5 harg5 arg6 harg6 hc0 x0 x1 x2).2.1)

/-- A later point's stores cover each accumulator's one element. -/
theorem cover0_B_3 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (x0 : Vec F S1x7x200x400 .f32) (x1 : Vec F S1x7x200x400 .f32) (x2 : Vec F S1x1x200x400 .f32) (xo3 : Vec F S1x1 .f32) (xo4 : Vec F S1x1 .f32) (y : S1x1.Idx) :
    ∃ pc ∈ (kernelRun0_B c i arg2 harg2 arg3 harg3 arg4 harg4 arg5 harg5 arg6 harg6 hc0 x0 x1 x2 xo3 xo4).1, y ∈ pc.1.set :=
  View.cover_of_tiledL (kernelRun0_B c i arg2 harg2 arg3 harg3 arg4 harg4 arg5 harg5 arg6 harg6 hc0 x0 x1 x2 xo3 xo4).1 S1x1.size (by sl_kernel_rfl) y
theorem cover0_B_4 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (x0 : Vec F S1x7x200x400 .f32) (x1 : Vec F S1x7x200x400 .f32) (x2 : Vec F S1x1x200x400 .f32) (xo3 : Vec F S1x1 .f32) (xo4 : Vec F S1x1 .f32) (y : S1x1.Idx) :
    ∃ pc ∈ (kernelRun0_B c i arg2 harg2 arg3 harg3 arg4 harg4 arg5 harg5 arg6 harg6 hc0 x0 x1 x2 xo3 xo4).2.1, y ∈ pc.1.set :=
  View.cover_of_tiledL (kernelRun0_B c i arg2 harg2 arg3 harg3 arg4 harg4 arg5 harg5 arg6 harg6 hc0 x0 x1 x2 xo3 xo4).2.1 S1x1.size (by sl_kernel_rfl) y
/-- What a later point leaves in them, over the running contents. -/
def out0_B_3 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (x0 : Vec F S1x7x200x400 .f32) (x1 : Vec F S1x7x200x400 .f32) (x2 : Vec F S1x1x200x400 .f32) (xo3 : Vec F S1x1 .f32) (xo4 : Vec F S1x1 .f32) : Vec F S1x1 .f32 :=
  VO0_3.read (Elt F) (VO0_3.writes (Elt F) VO0_3.junk (kernelRun0_B c i arg2 harg2 arg3 harg3 arg4 harg4 arg5 harg5 arg6 harg6 hc0 x0 x1 x2 xo3 xo4).1)
def out0_B_4 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (x0 : Vec F S1x7x200x400 .f32) (x1 : Vec F S1x7x200x400 .f32) (x2 : Vec F S1x1x200x400 .f32) (xo3 : Vec F S1x1 .f32) (xo4 : Vec F S1x1 .f32) : Vec F S1x1 .f32 :=
  VO0_4.read (Elt F) (VO0_4.writes (Elt F) VO0_4.junk (kernelRun0_B c i arg2 harg2 arg3 harg3 arg4 harg4 arg5 harg5 arg6 harg6 hc0 x0 x1 x2 xo3 xo4).2.1)

/-! ## What the accumulators hold after each point -/

/-- The pair (loss accumulator, mask accumulator) after the first point, at that point's memrefs and blocks. -/
def stepA (c : Dev nD) (t : Fin cfg0.N) (h0 : t.val % 64 = 0) : Vec F S1x1 .f32 × Vec F S1x1 .f32 :=
  (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t),
   out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t))
/-- The pair after a later point, over the pair the point before left. -/
def stepB (c : Dev nD) (t : Fin cfg0.N) (h0 : ¬t.val % 64 = 0) (prev : Vec F S1x1 .f32 × Vec F S1x1 .f32) : Vec F S1x1 .f32 × Vec F S1x1 .f32 :=
  (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) prev.1 prev.2,
   out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) prev.1 prev.2)

/-- THE ACCUMULATION: the pair after the body at position `n`, by recursion on the position. -/
def outsAt0 (c : Dev nD) : (n : ℕ) → n < cfg0.N → Vec F S1x1 .f32 × Vec F S1x1 .f32
  | 0, hn => stepA m c ⟨0, hn⟩ (Nat.zero_mod _)
  | n + 1, hn =>
    if h0 : (n + 1) % 64 = 0 then stepA m c ⟨n + 1, hn⟩ h0
    else stepB m c ⟨n + 1, hn⟩ h0 (outsAt0 c n (Nat.lt_of_succ_lt hn))

theorem outsAt0_A (c : Dev nD) (t : Fin cfg0.N) (h0 : t.val % 64 = 0) :
    outsAt0 m c t.val t.isLt = stepA m c t h0 := by
  obtain ⟨n, hn⟩ := t
  cases n with
  | zero => exact rfl
  | succ n => exact (dif_pos h0).trans rfl

theorem outsAt0_B (c : Dev nD) (t : Fin cfg0.N) (h0 : ¬t.val % 64 = 0) :
    outsAt0 m c t.val t.isLt = stepB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at point `t` each input's buffer at its block and the two
    accumulators' at `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later point each accumulator's staging buffer holds what the body left at the point before: it is written
    back after the last point only. -/
theorem before0_3_B (c : Dev nD) (t : Fin cfg0.N) (h0 : ¬t.val % 64 = 0) (d) :
    (dats m 0 c).before 3 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]
theorem before0_4_B (c : Dev nD) (t : Fin cfg0.N) (h0 : ¬t.val % 64 = 0) (d) :
    (dats m 0 c).before 4 t d = (outsAt0 m c (t.val - 1) (Nat.lt_of_le_of_lt (Nat.sub_le _ _) t.isLt)).2 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their blocks; at the first point the run that overwrites the
    accumulators applies, at a later one the run that reads them at what the point before left; the invariant
    passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 64 = 0
  · rw [outsAt0_A m c t h0]
    unfold stepA out0_A_3 out0_A_4
    dsimp only
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 (F := F) c _ _ _ _ _ _ _ _ _ _ _ _ _ _ _)
    unfold owns; iexists _; isplitr
    swap; · iexact H4
    ipureintro; exact View.read_writes_of_cover _ _ _ _ _ (cover0_A_4 (F := F) c _ _ _ _ _ _ _ _ _ _ _ _ _ _ _)
  · rw [outsAt0_B m c t h0]
    simp only [before0_3_B m c t h0, before0_4_B m c t h0]
    unfold stepB out0_B_3 out0_B_4
    dsimp only
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 (F := F) c _ _ _ _ _ _ _ _ _ _ _ _ _ _ _ _ _)
    unfold owns; iexists _; isplitr
    swap; · iexact H4
    ipureintro; exact View.read_writes_of_cover _ _ _ _ _ (cover0_B_4 (F := F) c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has the region's five
    arrays at what the proof data computes and every other unscoped buffer as the five later operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME, at any instance: @main runs to the end, nothing faults, both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Frm

end
-- ==== Proof.KernelIdeal.Chain.lean ====
/-
  The two accumulators after each grid point as ONE recursion over the body's stored values.

  Each case's stores, read back: a later point leaves in the loss accumulator the value `k0_pay5` of the point's three
  blocks and of what the accumulator held, and in the mask accumulator `k0_pay1` of the mask block and of what that
  held (one covering store each, whose loads read the whole staging buffers); the first point leaves the same values
  of the zero blocks it has just stored (a covering store read back, then overwritten by a second covering store).
  So the pair the frame's proof data carries from point to point is the recursion `chain`: start from the two
  reset values, apply the two stored-value functions at every point — by induction on the point. The result arrays
  are one block each, written back once, after the last point: they end holding the pair after point 63.
-/
import proofs.«151133_j29283087024791_1_alg».proof.Proof.KernelIdeal.Accum
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## What each case's stores leave -/

/-- A later point, loss accumulator: one covering store of `k0_pay5` of the three blocks and the running contents. -/
theorem out_B_3 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (x0 : Vec F S1x7x200x400 .f32) (x1 : Vec F S1x7x200x400 .f32) (x2 : Vec F S1x1x200x400 .f32) (xo3 : Vec F S1x1 .f32) (xo4 : Vec F S1x1 .f32) :
    out0_B_3 c i arg2 harg2 arg3 harg3 arg4 harg4 arg5 harg5 arg6 harg6 hc0 x0 x1 x2 xo3 xo4 = k0_pay5 x0 x1 x2 xo3 := by
  unfold out0_B_3
  rw [View.read_writes_eq_canon _ _ _ (cover0_B_3 c i arg2 harg2 arg3 harg3 arg4 harg4 arg5 harg5 arg6 harg6 hc0 x0 x1 x2 xo3 xo4)]
  unfold kernelRun0_B
  dsimp only
  sl_unfold_words
  rw [View.canon_unit_zero hz2]
  simp only [View.readAt_eq_ld, harg2.read_unread, harg3.read_unread, harg4.read_unread, harg5.read_unread, harg6.read_unread, View.ld_unit_zero (S := S1x7x200x400) hz4, View.ld_unit_zero (S := S1x1x200x400) hz4, View.ld_unit_zero (S := S1x1) hz2]

/-- A later point, mask accumulator: one covering store of `k0_pay1` of the mask block and the running contents. -/
theorem out_B_4 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (x0 : Vec F S1x7x200x400 .f32) (x1 : Vec F S1x7x200x400 .f32) (x2 : Vec F S1x1x200x400 .f32) (xo3 : Vec F S1x1 .f32) (xo4 : Vec F S1x1 .f32) :
    out0_B_4 c i arg2 harg2 arg3 harg3 arg4 harg4 arg5 harg5 arg6 harg6 hc0 x0 x1 x2 xo3 xo4 = k0_pay1 (k0_pay4 x2) xo4 := by
  unfold out0_B_4
  rw [View.read_writes_eq_canon _ _ _ (cover0_B_4 c i arg2 harg2 arg3 harg3 arg4 harg4 arg5 harg5 arg6 harg6 hc0 x0 x1 x2 xo3 xo4)]
  unfold kernelRun0_B
  dsimp only
  sl_unfold_words
  rw [View.canon_unit_zero hz2]
  simp only [View.readAt_eq_ld, harg2.read_unread, harg3.read_unread, harg4.read_unread, harg5.read_unread, harg6.read_unread, View.ld_unit_zero (S := S1x7x200x400) hz4, View.ld_unit_zero (S := S1x1x200x400) hz4, View.ld_unit_zero (S := S1x1) hz2]

/-- The first point, loss accumulator: the reset value stored, read back, and `k0_pay5` of it stored over it. -/
theorem out_A_3 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : cond0_0 i) (x0 : Vec F S1x7x200x400 .f32) (x1 : Vec F S1x7x200x400 .f32) (x2 : Vec F S1x1x200x400 .f32) :
    out0_A_3 c i arg2 harg2 arg3 harg3 arg4 harg4 arg5 harg5 arg6 harg6 hc0 x0 x1 x2 = k0_pay5 x0 x1 x2 (k0_pay2 (F := F)) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, View.ld_unit_zero (S := S1x7x200x400) hz4, View.ld_unit_zero (S := S1x1x200x400) hz4, View.ld_unit_zero (S := S1x1) hz2]

/-- The first point, mask accumulator: likewise with `k0_pay1`. -/
theorem out_A_4 (c : Dev nD) (i : grid0.Coords) (arg2 : Memref sig .tc .vmem S1x7x200x400 .f32) (harg2 : arg2.IsWhole) (arg3 : Memref sig .tc .vmem S1x7x200x400 .f32) (harg3 : arg3.IsWhole) (arg4 : Memref sig .tc .vmem S1x1x200x400 .f32) (harg4 : arg4.IsWhole) (arg5 : Memref sig .tc .vmem S1x1 .f32) (harg5 : arg5.IsWhole) (arg6 : Memref sig .tc .vmem S1x1 .f32) (harg6 : arg6.IsWhole) (hc0 : cond0_0 i) (x0 : Vec F S1x7x200x400 .f32) (x1 : Vec F S1x7x200x400 .f32) (x2 : Vec F S1x1x200x400 .f32) :
    out0_A_4 c i arg2 harg2 arg3 harg3 arg4 harg4 arg5 harg5 arg6 harg6 hc0 x0 x1 x2 = k0_pay1 (k0_pay4 x2) (k0_pay3 (F := F)) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, View.ld_unit_zero (S := S1x7x200x400) hz4, View.ld_unit_zero (S := S1x1x200x400) hz4, View.ld_unit_zero (S := S1x1) hz2]

/-! ## The recursion -/

/-- The pair (loss accumulator, mask accumulator) after point `n`, over the stored-value functions alone. -/
def chain (c : Dev nD) : (n : ℕ) → n < cfg0.N → Vec F S1x1 .f32 × Vec F S1x1 .f32
  | 0, h => (k0_pay5 (iblk m c 0 ⟨0, h⟩) (iblk m c 1 ⟨0, h⟩) (iblk m c 2 ⟨0, h⟩) (k0_pay2 (F := F)),
             k0_pay1 (k0_pay4 (iblk m c 2 ⟨0, h⟩)) (k0_pay3 (F := F)))
  | n + 1, h => (k0_pay5 (iblk m c 0 ⟨n + 1, h⟩) (iblk m c 1 ⟨n + 1, h⟩) (iblk m c 2 ⟨n + 1, h⟩) (chain c n (Nat.lt_of_succ_lt h)).1,
                 k0_pay1 (k0_pay4 (iblk m c 2 ⟨n + 1, h⟩)) (chain c n (Nat.lt_of_succ_lt h)).2)

/-- What the proof data carries from point to point IS that recursion — by induction on the point. -/
theorem outsAt_eq (c : Dev nD) : ∀ (n : ℕ) (h : n < cfg0.N), outsAt0 m c n h = chain m c n h
  | 0, h => by
    rw [outsAt0_A m c ⟨0, h⟩ (Nat.zero_mod _)]
    unfold stepA
    rw [out_A_3, out_A_4]
    rfl
  | n + 1, h => by
    have hN : cfg0.N = 64 := N_0
    have hB : ¬(⟨n + 1, h⟩ : Fin cfg0.N).val % 64 = 0 := by dsimp only; omega
    rw [outsAt0_B m c ⟨n + 1, h⟩ hB]
    unfold stepB
    rw [out_B_3, out_B_4]
    show (k0_pay5 _ _ _ (outsAt0 m c n _).1, k0_pay1 _ (outsAt0 m c n _).2) = _
    rw [outsAt_eq c n]
    rfl

end Cert.KernelIdeal.Frm

end
-- ==== Proof.KernelIdeal.Result.lean ====
/-
  The two result arrays after the run, and the two values @main returns.

  Each accumulator's array is ONE block of one element, written back once, after the last grid point (point 63): so
  it ends holding what the recursion over the stored values gives there (`lossAcc`, `maskAcc`). The five host operations
  after the region read the two arrays as scalars, add the epsilon to the mask total and divide the loss total by
  that: the run's post names both returned buffers by those operations of the two totals, and keeps the arguments.
-/
import proofs.«151133_j29283087024791_1_alg».proof.Proof.KernelIdeal.Chain
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last grid point. -/
abbrev tLast : Fin cfg0.N := ⟨63, by rw [show cfg0.N = 64 from N_0]; decide⟩

/-- The loss total and the mask total: the recursion's pair after the last point, as contents of the result arrays. -/
abbrev lossAcc (c : Dev nD) : Buf (Elt F) ((c : Thread nD τ).loc main_v78_0) := (chain m c 63 tLast.isLt).1
abbrev maskAcc (c : Dev nD) : Buf (Elt F) ((c : Thread nD τ).loc main_v78_1) := (chain m c 63 tLast.isLt).2

/-- Only the last point writes window 3 back, and what it writes is the loss total: the block at index (0, 0) of a
    one-element array, read through zero offsets, is the array. -/
theorem flushed3_eq (c : Dev nD) (t : Fin cfg0.N) (hf : (cfg0.win 3).flush t = true) :
    (dats m 0 c).flushed 3 t = ((cfg0.win 3).blk t).view.read (Elt F) (lossAcc m c) := by
  have hN : cfg0.N = 64 := N_0
  have h63 : t.val = 63 := by have := (flush0_3 t).mp hf; have := t.isLt; omega
  obtain rfl : t = tLast := Fin.ext h63
  show (cfg0.win 3).cut (grid0.coords tLast) ((dats m 0 c).after 3 tLast) = _
  rw [after0_3, outsAt_eq]
  have hz' : (fun a => win0_3.index tLast a * main_v78_0.ty.shape.size a) = fun _ => 0 := funext fun a => by fin_cases a <;> decide
  exact (Memref.read_access_unit_zero (Elt F) main_v78_0 hz' (fun a => by rw [congrFun hz' a]; simp) (lossAcc m c)).symm

/-- The same for window 4 and the mask total. -/
theorem flushed4_eq (c : Dev nD) (t : Fin cfg0.N) (hf : (cfg0.win 4).flush t = true) :
    (dats m 0 c).flushed 4 t = ((cfg0.win 4).blk t).view.read (Elt F) (maskAcc m c) := by
  have hN : cfg0.N = 64 := N_0
  have h63 : t.val = 63 := by have := (flush0_4 t).mp hf; have := t.isLt; omega
  obtain rfl : t = tLast := Fin.ext h63
  show (cfg0.win 4).cut (grid0.coords tLast) ((dats m 0 c).after 4 tLast) = _
  rw [after0_4, outsAt_eq]
  have hz' : (fun a => win0_4.index tLast a * main_v78_1.ty.shape.size a) = fun _ => 0 := funext fun a => by fin_cases a <;> decide
  exact (Memref.read_access_unit_zero (Elt F) main_v78_1 hz' (fun a => by rw [congrFun hz' a]; simp) (maskAcc m c)).symm

/-- The one element of each result array lies in the last point's block: the block starts at zero on both axes and
    has the array's extents. -/
theorem lastBlk3_facts : ∀ a : Fin 2, win0_3.index tLast a * win0_3.size a = 0 ∧ win0_3.xsize (grid0.coords tLast) a = S1x1.size a := by
  decide +kernel
theorem cover3 (i : S1x1.Idx) : i ∈ ((cfg0.win 3).blk tLast).view.set := by
  show i ∈ ((View.whole main_v78_0).slice (win0_3.rect tLast)).set
  rw [View.set_slice_whole, Rect.mem_set_unit]
  intro a
  have hi : (i a : Nat) < S1x1.size a := (i a).isLt
  obtain ⟨e0, e1⟩ := lastBlk3_facts a
  rw [e0, e1, Nat.zero_add]
  exact ⟨Nat.zero_le _, hi⟩

theorem lastBlk4_facts : ∀ a : Fin 2, win0_4.index tLast a * win0_4.size a = 0 ∧ win0_4.xsize (grid0.coords tLast) a = S1x1.size a := by
  decide +kernel
theorem cover4 (i : S1x1.Idx) : i ∈ ((cfg0.win 4).blk tLast).view.set := by
  show i ∈ ((View.whole main_v78_1).slice (win0_4.rect tLast)).set
  rw [View.set_slice_whole, Rect.mem_set_unit]
  intro a
  have hi : (i a : Nat) < S1x1.size a := (i a).isLt
  obtain ⟨e0, e1⟩ := lastBlk4_facts a
  rw [e0, e1, Nat.zero_add]
  exact ⟨Nat.zero_le _, hi⟩

/-- So each result array ends holding its total. -/
theorem final_3 (c : Dev nD) : (dats m 0 c).arrAt 3 cfg0.N = lossAcc m c :=
  (dats m 0 c).arrAt_eq_of_cover 3 (lossAcc m c) (flushed3_eq m c) fun i => ⟨tLast, (flush0_3 tLast).mpr rfl, cover3 i⟩
theorem final_4 (c : Dev nD) : (dats m 0 c).arrAt 4 cfg0.N = maskAcc m c :=
  (dats m 0 c).arrAt_eq_of_cover 4 (maskAcc m c) (flushed4_eq m c) fun i => ⟨tLast, (flush0_4 tLast).mpr rfl, cover4 i⟩

/-! ## The values @main returns -/

/-- The count: the mask total read as a scalar. -/
def countOut (c : Dev nD) : Buf (Elt F) ((c : Thread nD τ).loc main_v79) :=
  shapeCast S_ (maskAcc m c) shapeCasts_S1x1_S_
/-- The loss: the loss total read as a scalar, over the count plus the epsilon. -/
def lossOut (c : Dev nD) : Buf (Elt F) ((c : Thread nD τ).loc main_v82) :=
  Host.divf (shapeCast S_ (lossAcc m c) shapeCasts_S1x1_S_)
    (addf (shapeCast S_ (maskAcc m c) shapeCasts_S1x1_S_) (constant S_ .f32 0x358637BD#32))

/-- The region's exit contents at the two result arrays. -/
theorem exit_3 (c : Dev nD) :
    Pipeline.withArrays (cfgs 0).spec c (V0 m c) (fun w => (dats m 0 c).arrAt w (cfgs 0).N) (Proc.devRef .tc main_v78_0) = lossAcc m c :=
  (Pipeline.withArrays_arr spec0 launch0.win.arr_inj c _ _ 3).trans (final_3 m c)
theorem exit_4 (c : Dev nD) :
    Pipeline.withArrays (cfgs 0).spec c (V0 m c) (fun w => (dats m 0 c).arrAt w (cfgs 0).N) (Proc.devRef .tc main_v78_1) = maskAcc m c :=
  (Pipeline.withArrays_arr spec0 launch0.win.arr_inj c _ _ 4).trans (final_4 m c)

/-- What the five later operations leave in the returned loss buffer. -/
theorem tail_v82 (c : Dev nD) : Pipeline.afterTail₀ cfgs (dats m) 0 (V0 m) [hostOps1] c main_v82 = lossOut m c := by
  unfold Pipeline.afterTail₀
  show StableHlo.after hostOps1 _ (Proc.devRef .tc main_v82) = _
  after_results
  rw [exit_3, exit_4]
  rfl
/-- And in the returned count buffer. -/
theorem tail_v79 (c : Dev nD) : Pipeline.afterTail₀ cfgs (dats m) 0 (V0 m) [hostOps1] c main_v79 = countOut m c := by
  unfold Pipeline.afterTail₀
  show StableHlo.after hostOps1 _ (Proc.devRef .tc main_v79) = _
  after_results
  rw [exit_4]
  rfl

/-- The run, read: both returned buffers at those values, both arguments as launched. -/
theorem run_values : θ_run defs (onTc (τ := τ) (main (F := F))) ⟨m, fun _ => 0, ρ⟩ (fun r => ∀ c : Dev nD,
      r.2.mem ((c.tc : Thread nD τ).loc main_v82) = lossOut m c
      ∧ r.2.mem ((c.tc : Thread nD τ).loc main_v79) = countOut m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).2 main_v82 (by decide)).trans (tail_v82 m c),
    ((h c).2 main_v79 (by decide)).trans (tail_v79 m c),
    ((h c).1 0).trans (((dats m 0 c).arrAt_in 0 rfl _).trans ((A_eq m c 0).trans (V_main_arg0 m c))), by
    refine ((h c).2 main_arg1 (by decide)).trans ?_
    unfold Pipeline.afterTail₀
    refine (StableHlo.after_of_forall_not_mem (b := Proc.devRef .tc main_arg1) _ _ ?_).trans
      ((Pipeline.withArrays_of_ne spec0 c _ _ main_arg1 (by decide)).trans (V_main_arg1 m c))
    intro op hop
    simp only [List.flatten_cons, List.flatten_nil, List.append_nil, hostOps1, List.mem_cons, List.mem_nil_iff, or_false] at hop
    rcases hop with rfl | rfl | rfl | rfl | rfl <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;>
      exact StableHlo.devRef_ne_of_ne (by decide)⟩) (run_main m ρ)

end Cert.KernelIdeal.Frm

end
-- ==== Proof.Spec.lean ====
/-
  The specification the kernel and the reference are both read against, and the arithmetic that joins them.

  The loss is a sum, over every element of a [32, 7, 400, 400] array, of the smooth-L1 term of a prediction against
  a target (`term`), weighted by a mask that does not depend on the channel (`chan0`); the count is the sum of the
  mask over [32, 1, 400, 400]. The kernel walks 64 blocks, half an image each — block `t` is image `t / 2`, rows
  `200 * (t % 2) …` (`bidxP`, `bidxM`) —, adds each block's sum to a running total that starts from zero
  (`acc_eq_sum`), and the blocks tile the arrays (`sum_blocksP`, `sum_blocksM`): so the running total after the last
  block is the sum over the whole array. Sums of extended reals may be regrouped freely (addition there is
  commutative and associative), so nothing here asks the summands to be finite.
-/
import Idealize.ShloMosaic.PureOps.Ideal
import Idealize.ShloMosaic.PureOps.Ideal.Laws
import Idealize.ShloMosaic.Lib.ValueIdx

noncomputable section

namespace SmoothL1Spec

open Idealize.ShloMosaic Idealize.ShloMosaic.ValueIdx
open scoped BigOperators

/-- The whole arrays: predictions and target map; mask. -/
abbrev SP : Shape := ⟨4, ![32, 7, 400, 400]⟩
abbrev SM : Shape := ⟨4, ![32, 1, 400, 400]⟩
/-- One block of each: half an image. -/
abbrev SBP : Shape := ⟨4, ![1, 7, 200, 400]⟩
abbrev SBM : Shape := ⟨4, ![1, 1, 200, 400]⟩

/-- The smooth-L1 term (beta = 1) of a prediction `p` against a target `q` on the extended reals: with `d = p - q`,
    half of `d` squared where `|d| < 1`, else `|d|` less a half. The two literals are the f32 words of 1 and 1/2,
    which both programs carry and which are never evaluated. -/
def term (p q : EReal) : EReal :=
  Scalar.select (Ideal.cmp .olt (max (p - q) (-(p - q))) (Ideal.ofBits .f32 0x3F800000#32))
    (Ideal.ofBits .f32 0x3F000000#32 * (p - q) * (p - q))
    (max (p - q) (-(p - q)) - Ideal.ofBits .f32 0x3F000000#32)

/-- The mask element that weights array element `j`: same image, row and column, the one mask channel. -/
def chan0 (j : SP.Idx) : SM.Idx := ix4 (j 0) ⟨0, Nat.one_pos⟩ (j 2) (j 3)
/-- The same inside a block. -/
def chanB (y : SBP.Idx) : SBM.Idx := ix4 (y 0) ⟨0, Nat.one_pos⟩ (y 2) (y 3)

/-- Where element `y` of block `t` sits in the whole array: image `t / 2`, row `200 * (t % 2) + y 2`. -/
def bidxP (t : Fin 64) (y : SBP.Idx) : SP.Idx :=
  ix4 ⟨t.val / 2, by omega⟩ (y 1) ⟨200 * (t.val % 2) + (y 2).val, by have := (y 2).isLt; show _ < 400; have h : (y 2).val < 200 := this; omega⟩ (y 3)
def bidxM (t : Fin 64) (z : SBM.Idx) : SM.Idx :=
  ix4 ⟨t.val / 2, by omega⟩ (z 1) ⟨200 * (t.val % 2) + (z 2).val, by have := (z 2).isLt; show _ < 400; have h : (z 2).val < 200 := this; omega⟩ (z 3)

/-- A block element's mask element is the mask block's element. -/
theorem chan0_bidxP (t : Fin 64) (y : SBP.Idx) : chan0 (bidxP t y) = bidxM t (chanB y) := by
  funext a
  match a with
  | ⟨0, _⟩ => rfl
  | ⟨1, _⟩ => rfl
  | ⟨2, _⟩ => rfl
  | ⟨3, _⟩ => rfl

/-- The whole array, for any number of channels. -/
private abbrev W (c : ℕ) : Shape := ⟨4, ![32, c, 400, 400]⟩
/-- One block of it: half an image. -/
private abbrev B (c : ℕ) : Shape := ⟨4, ![1, c, 200, 400]⟩

/-- The tiling as a bijection. Block t, element y goes to image t / 2, row 200 * (t % 2) + y 2; back, element j lies in
    block 2 * (j 0) + (j 2) / 200 at row (j 2) % 200. Both round trips are division with remainder by 2 and by 200. -/
private def blockEquiv (c : ℕ) : Fin 64 × (B c).Idx ≃ (W c).Idx where
  toFun p := ix4 (n0 := 32) (n2 := 400) ⟨p.1.val / 2, by omega⟩ (p.2 1)
    ⟨200 * (p.1.val % 2) + (p.2 2).val, by have h : (p.2 2).val < 200 := (p.2 2).isLt; omega⟩ (p.2 3)
  invFun j := (⟨2 * (j 0).val + (j 2).val / 200, by
      have h0 : (j 0).val < 32 := (j 0).isLt
      have h2 : (j 2).val < 400 := (j 2).isLt
      omega⟩,
    ix4 (n0 := 1) (n2 := 200) ⟨0, Nat.one_pos⟩ (j 1) ⟨(j 2).val % 200, Nat.mod_lt _ (by decide)⟩ (j 3))
  left_inv p := by
    obtain ⟨t, y⟩ := p
    have h2 : (y 2).val < 200 := (y 2).isLt
    have h0 : (y 0).val < 1 := (y 0).isLt
    refine Prod.ext (Fin.ext ?_) ?_
    · show 2 * (t.val / 2) + (200 * (t.val % 2) + (y 2).val) / 200 = t.val
      omega
    · funext a
      match a with
      | ⟨0, _⟩ => exact Fin.ext (by show 0 = (y 0).val; omega)
      | ⟨1, _⟩ => rfl
      | ⟨2, _⟩ => exact Fin.ext (by show (200 * (t.val % 2) + (y 2).val) % 200 = (y 2).val; omega)
      | ⟨3, _⟩ => rfl
  right_inv j := by
    have h0 : (j 0).val < 32 := (j 0).isLt
    have h2 : (j 2).val < 400 := (j 2).isLt
    funext a
    match a with
    | ⟨0, _⟩ => exact Fin.ext (by show (2 * (j 0).val + (j 2).val / 200) / 2 = (j 0).val; omega)
    | ⟨1, _⟩ => rfl
    | ⟨2, _⟩ => exact Fin.ext (by
        show 200 * ((2 * (j 0).val + (j 2).val / 200) % 2) + (j 2).val % 200 = (j 2).val; omega)
    | ⟨3, _⟩ => rfl

/-- The 64 blocks tile the [32, 7, 400, 400] array: a sum over it is the sum over the blocks of each block's sum. -/
theorem sum_blocksP (f : SP.Idx → EReal) : ∑ t : Fin 64, ∑ y : SBP.Idx, f (bidxP t y) = ∑ j : SP.Idx, f j := by
  rw [← Fintype.sum_prod_type (f := fun p : Fin 64 × SBP.Idx => f (bidxP p.1 p.2))]
  exact Fintype.sum_equiv (blockEquiv 7) _ _ (fun _ => rfl)

/-- The same for the [32, 1, 400, 400] mask. -/
theorem sum_blocksM (g : SM.Idx → EReal) : ∑ t : Fin 64, ∑ z : SBM.Idx, g (bidxM t z) = ∑ j : SM.Idx, g j := by
  rw [← Fintype.sum_prod_type (f := fun p : Fin 64 × SBM.Idx => g (bidxM p.1 p.2))]
  exact Fintype.sum_equiv (blockEquiv 1) _ _ (fun _ => rfl)

/-- A running total that starts at zero plus the first summand and adds one summand a step is the sum so far. -/
theorem acc_eq_sum (a s : ℕ → EReal) (h0 : a 0 = 0 + s 0) (hs : ∀ n, a (n + 1) = a n + s (n + 1)) (n : ℕ) :
    a n = ∑ t ∈ Finset.range (n + 1), s t := by
  induction n with
  | zero => rw [h0, zero_add, Finset.sum_range_one]
  | succ n ih => rw [hs n, ih, Finset.sum_range_succ (fun t => s t) (n + 1)]

/-- After 64 steps: the sum over the 64 blocks. -/
theorem acc_last (a s : ℕ → EReal) (h0 : a 0 = 0 + s 0) (hs : ∀ n, a (n + 1) = a n + s (n + 1)) :
    a 63 = ∑ t : Fin 64, s t.val := by
  rw [acc_eq_sum a s h0 hs 63, Finset.sum_range]

end SmoothL1Spec

end
-- ==== Proof.KernelIdeal.Payload.lean ====
/-
  The kernel body's stored values read at their one index, on the extended reals.

  The two values the first grid point resets the accumulators to are zero. The value a point stores into the loss
  accumulator is what the accumulator held plus the sum, over the point's [1, 7, 200, 400] block, of the smooth-L1
  term of prediction against target times the mask element of the same row and column (the mask block broadcast over
  the seven channels); the value it stores into the mask accumulator is what that held plus the sum of the point's
  [1, 1, 200, 400] mask block. Each in-kernel reduction is over every axis of its operand, so on the extended reals it
  is a plain sum over the operand's indices; the reshapes before it only re-index that sum.
-/
import proofs.«151133_j29283087024791_1_alg».proof.Proof.Gen.KernelIdeal.Skeleton
import proofs.«151133_j29283087024791_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen SmoothL1Spec
open Idealize.ShloMosaic Idealize.ShloMosaic.ValueIdx
open scoped BigOperators

/-- A shape cast only re-indexes: the sum over the cast's indices is the sum over the operand's, the cast being a
    bijection between the two index types (the matching by row-major position). -/
private theorem sum_shapeCast {s t : Shape} (v : s.Idx → EReal) (h : s.ShapeCasts t) :
    ∑ j : t.Idx, shapeCast t v h j = ∑ k : s.Idx, v k :=
  Fintype.sum_equiv (Shape.reshapeEquiv h) _ _ fun _ => rfl

/-- Every axis of the one-element result shape has size one. -/
private theorem S1_size (b : Fin S1.rank) : S1.size b = 1 := by
  have hb : b = ⟨0, Nat.one_pos⟩ := Fin.ext (by have := b.isLt; show b.val = 0; have h : S1.rank = 1 := rfl; omega)
  subst hb
  rfl

/-- The value the first point resets the loss accumulator to. -/
theorem pay2_apply (i : S1x1.Idx) : k0_pay2 (F := Ideal) i = 0 := by
  unfold k0_pay2
  exact Ideal.ofBits_zero_f32

/-- The value it resets the mask accumulator to. -/
theorem pay3_apply (i : S1x1.Idx) : k0_pay3 (F := Ideal) i = 0 := by
  unfold k0_pay3
  exact Ideal.ofBits_zero_f32

/-- The loss accumulator's new value: the old one plus the block's masked smooth-L1 sum. -/
theorem pay5_apply (x0 x1 : Vec Ideal S1x7x200x400 .f32) (x2 : Vec Ideal S1x1x200x400 .f32) (acc : Vec Ideal S1x1 .f32) (i : S1x1.Idx) :
    k0_pay5 (F := Ideal) x0 x1 x2 acc i = acc i + ∑ y : S1x7x200x400.Idx, term (x0 y) (x1 y) * x2 (chanB y) := by
  unfold k0_pay5 k0_pay4
  dsimp only
  rw [addf_apply, broadcast_apply, shapeCast_self]
  refine congrArg (fun t => acc i + t) ?_
  -- the extracted element of the re-shaped reduction is the reduction at its one index: the total sum
  refine (Ideal.multiReduction_add_total (φ := .f32) (s := S1x1x7x200x400) (t := S1) _ 0x00000000#32 _ S1_size (.inl rfl) rfl _).trans ?_
  -- the reshape to five axes only re-indexes the sum
  rw [sum_shapeCast]
  refine Finset.sum_congr rfl fun y _ => ?_
  rw [mulf_apply, shapeCast_self, shapeCast_self]
  -- the mask block broadcast over the seven channels reads, at `y`, the mask at `y`'s image, row and column
  have hb : broadcastTo S1x7x200x400 x2 broadcasts_S1x1x200x400_S1x7x200x400 y = x2 (chanB y) := by
    refine broadcastTo_apply x2 _ y (chanB y) fun a => ?_
    have h0 : (y 0).val < 1 := (y 0).isLt
    match a with
    | ⟨0, _⟩ => show (y 0).val = 0; omega
    | ⟨1, _⟩ => rfl
    | ⟨2, _⟩ => rfl
    | ⟨3, _⟩ => rfl
  rw [hb]
  -- the elementwise chain at `y` is the smooth-L1 term, operation by operation
  rfl

/-- The mask accumulator's new value: the old one plus the mask block's sum. -/
theorem pay1_apply (x2 : Vec Ideal S1x1x200x400 .f32) (acc : Vec Ideal S1x1 .f32) (i : S1x1.Idx) :
    k0_pay1 (F := Ideal) (k0_pay4 (F := Ideal) x2) acc i = acc i + ∑ z : S1x1x200x400.Idx, x2 z := by
  unfold k0_pay1 k0_pay4
  dsimp only
  rw [addf_apply, broadcast_apply, shapeCast_self, shapeCast_self]
  refine congrArg (fun t => acc i + t) ?_
  -- the reduction into one element is the total sum over the five-axis operand, which the reshape re-indexes to the block's
  refine (Ideal.multiReduction_add_total (φ := .f32) (s := S1x1x1x200x400) (t := S1) _ 0x00000000#32 _ S1_size (.inl rfl) rfl _).trans ?_
  exact sum_shapeCast _ _

end Cert.KernelIdeal.Pay

end
-- ==== Proof.KernelIdeal.Blocks.lean ====
/-
  The region's input blocks as elements of the whole arrays.

  Window 0 stages the predictions, window 1 the target map, window 2 the mask, each cut into 64 blocks of half an
  image: at grid point `t` the block's index is (t / 2, 0, t % 2, 0) in units of the block's extents, so element `y` of
  the block is the array's element at image `t / 2`, the same channel, row `200 * (t % 2) + y 2`, the same column — the
  specification's `bidxP t y` (`bidxM t z` for the mask). A block's coordinate on an axis is always block index times
  block extent plus the coordinate inside the block; the block indices are decided once over the 64 points.
-/
import proofs.«151133_j29283087024791_1_alg».proof.Proof.KernelIdeal.Entry
import proofs.«151133_j29283087024791_1_alg».proof.Proof.Spec
import Idealize.ShloMosaic.Lib.Pipeline.Value

set_option maxRecDepth 16384

noncomputable section

namespace Cert.KernelIdeal.Frm

open Cert.KernelIdeal Cert.KernelIdeal.Gen SmoothL1Spec
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-- A grid point as one of the specification's 64 block numbers. -/
abbrev t64 (t : Fin cfg0.N) : Fin 64 := ⟨t.val, lt_of_lt_of_eq t.isLt N_0⟩

/-- The three input windows' block indices at every grid point, decided over the 64 points: image t / 2, channel block
    0, row block t % 2, column block 0. -/
private theorem blockIdx_facts : ∀ t : Fin cfg0.N,
    win0_0.index t (0 : Fin 4) = t.val / 2 ∧ win0_0.index t (1 : Fin 4) = 0
    ∧ win0_0.index t (2 : Fin 4) = t.val % 2 ∧ win0_0.index t (3 : Fin 4) = 0
    ∧ win0_1.index t (0 : Fin 4) = t.val / 2 ∧ win0_1.index t (1 : Fin 4) = 0
    ∧ win0_1.index t (2 : Fin 4) = t.val % 2 ∧ win0_1.index t (3 : Fin 4) = 0
    ∧ win0_2.index t (0 : Fin 4) = t.val / 2 ∧ win0_2.index t (1 : Fin 4) = 0
    ∧ win0_2.index t (2 : Fin 4) = t.val % 2 ∧ win0_2.index t (3 : Fin 4) = 0 :=
  (by decide +kernel : ∀ t : Fin grid0.N, _)

/-- Element `y` of the predictions' block at point `t` is the predictions' element at `bidxP t y`. -/
theorem iblk0_apply (c : Dev nD) (t : Fin cfg0.N) (y : S1x7x200x400.Idx) :
    iblk m c 0 t y = V m c main_arg0 (bidxP (t64 t) y) := by
  unfold iblk
  -- reading a block at y is reading the array at the block's embedding of y
  show V m c main_arg0 (((cfg0.win 0).blk t).view.emb y) = V m c main_arg0 (bidxP (t64 t) y)
  refine congrArg (V m c main_arg0) ?_
  obtain ⟨e0, e1, e2, e3, -⟩ := blockIdx_facts t
  have h0 : (y 0).val < 1 := (y 0).isLt
  -- axis by axis: block index times block extent plus the coordinate inside the block
  funext a; apply Fin.ext
  match a with
  | ⟨0, _⟩ => show win0_0.index t (0 : Fin 4) * 1 + 1 * (y 0).val = t.val / 2; omega
  | ⟨1, _⟩ => show win0_0.index t (1 : Fin 4) * 7 + 1 * (y 1).val = (y 1).val; omega
  | ⟨2, _⟩ => show win0_0.index t (2 : Fin 4) * 200 + 1 * (y 2).val = 200 * (t.val % 2) + (y 2).val; omega
  | ⟨3, _⟩ => show win0_0.index t (3 : Fin 4) * 400 + 1 * (y 3).val = (y 3).val; omega

/-- The same for the target map. -/
theorem iblk1_apply (c : Dev nD) (t : Fin cfg0.N) (y : S1x7x200x400.Idx) :
    iblk m c 1 t y = V m c main_v52 (bidxP (t64 t) y) := by
  unfold iblk
  show V m c main_v52 (((cfg0.win 1).blk t).view.emb y) = V m c main_v52 (bidxP (t64 t) y)
  refine congrArg (V m c main_v52) ?_
  obtain ⟨-, -, -, -, e0, e1, e2, e3, -⟩ := blockIdx_facts t
  have h0 : (y 0).val < 1 := (y 0).isLt
  funext a; apply Fin.ext
  match a with
  | ⟨0, _⟩ => show win0_1.index t (0 : Fin 4) * 1 + 1 * (y 0).val = t.val / 2; omega
  | ⟨1, _⟩ => show win0_1.index t (1 : Fin 4) * 7 + 1 * (y 1).val = (y 1).val; omega
  | ⟨2, _⟩ => show win0_1.index t (2 : Fin 4) * 200 + 1 * (y 2).val = 200 * (t.val % 2) + (y 2).val; omega
  | ⟨3, _⟩ => show win0_1.index t (3 : Fin 4) * 400 + 1 * (y 3).val = (y 3).val; omega

/-- Element `z` of the mask's block at point `t` is the mask's element at `bidxM t z`. -/
theorem iblk2_apply (c : Dev nD) (t : Fin cfg0.N) (z : S1x1x200x400.Idx) :
    iblk m c 2 t z = V m c main_v77 (bidxM (t64 t) z) := by
  unfold iblk
  show V m c main_v77 (((cfg0.win 2).blk t).view.emb z) = V m c main_v77 (bidxM (t64 t) z)
  refine congrArg (V m c main_v77) ?_
  obtain ⟨-, -, -, -, -, -, -, -, e0, e1, e2, e3⟩ := blockIdx_facts t
  have h0 : (z 0).val < 1 := (z 0).isLt
  funext a; apply Fin.ext
  match a with
  | ⟨0, _⟩ => show win0_2.index t (0 : Fin 4) * 1 + 1 * (z 0).val = t.val / 2; omega
  | ⟨1, _⟩ => show win0_2.index t (1 : Fin 4) * 1 + 1 * (z 1).val = (z 1).val; omega
  | ⟨2, _⟩ => show win0_2.index t (2 : Fin 4) * 200 + 1 * (z 2).val = 200 * (t.val % 2) + (z 2).val; omega
  | ⟨3, _⟩ => show win0_2.index t (3 : Fin 4) * 400 + 1 * (z 3).val = (z 3).val; omega

end Cert.KernelIdeal.Frm

end
-- ==== Proof.KernelIdeal.Total.lean ====
/-
  The two totals on the extended reals: the loss total is the specification's weighted sum over the whole
  [32, 7, 400, 400] array, the mask total the sum of the whole [32, 1, 400, 400] mask.

  On the extended reals a point's stored value is what the accumulator held plus the point's block sum, and the reset
  values are zero: so after point `n` each accumulator holds the sum of the block sums of the points up to `n` — by
  induction on the point. A block's element is the whole array's element at the block's place, and a block element's
  mask element is the mask block's element at the same row and column; the 64 blocks tile the arrays. So after the
  last point the loss accumulator holds the sum over every array element of the smooth-L1 term of prediction against
  target-map element times the mask element of its image, row and column, and the mask accumulator the sum of the mask.
-/
import proofs.«151133_j29283087024791_1_alg».proof.Proof.KernelIdeal.Result
import proofs.«151133_j29283087024791_1_alg».proof.Proof.KernelIdeal.Payload
import proofs.«151133_j29283087024791_1_alg».proof.Proof.KernelIdeal.Blocks
import proofs.«151133_j29283087024791_1_alg».proof.Proof.Spec

set_option maxRecDepth 16384

noncomputable section

namespace Cert.KernelIdeal.Frm

open Cert.KernelIdeal Cert.KernelIdeal.Gen Cert.KernelIdeal.Pay SmoothL1Spec
open Idealize.ShloMosaic Idealize.ShloMosaic.TcCoe Idealize.ShloMosaic.ValueIdx
open Idealize.SL Idealize.SL.Sem
open scoped BigOperators

variable (m : (ℓ : Loc nD τ sig) → Buf (Elt Ideal) ℓ)

/-- The recursion's two equations. -/
theorem chain_zero (c : Dev nD) (h : 0 < cfg0.N) :
    chain m c 0 h = (k0_pay5 (iblk m c 0 ⟨0, h⟩) (iblk m c 1 ⟨0, h⟩) (iblk m c 2 ⟨0, h⟩) (k0_pay2 (F := Ideal)),
             k0_pay1 (k0_pay4 (iblk m c 2 ⟨0, h⟩)) (k0_pay3 (F := Ideal))) := rfl
theorem chain_succ (c : Dev nD) (n : ℕ) (h : n + 1 < cfg0.N) :
    chain m c (n + 1) h = (k0_pay5 (iblk m c 0 ⟨n + 1, h⟩) (iblk m c 1 ⟨n + 1, h⟩) (iblk m c 2 ⟨n + 1, h⟩) (chain m c n (Nat.lt_of_succ_lt h)).1,
                 k0_pay1 (k0_pay4 (iblk m c 2 ⟨n + 1, h⟩)) (chain m c n (Nat.lt_of_succ_lt h)).2) := rfl

/-- A point's block sums: the masked smooth-L1 sum of its three blocks, and the sum of its mask block. -/
def lossBlk (c : Dev nD) (t : Fin cfg0.N) : EReal :=
  ∑ y : S1x7x200x400.Idx, term (iblk m c 0 t y) (iblk m c 1 t y) * iblk m c 2 t (chanB y)
def maskBlk (c : Dev nD) (t : Fin cfg0.N) : EReal :=
  ∑ z : S1x1x200x400.Idx, iblk m c 2 t z

/-- After point `n` the loss accumulator holds the sum of the block sums of points `0 … n`. -/
theorem chain_fst (c : Dev nD) (i : S1x1.Idx) : ∀ (n : ℕ) (h : n < cfg0.N),
    (chain m c n h).1 i = ∑ t : Fin (n + 1), lossBlk m c ⟨t.val, lt_of_lt_of_le t.isLt (Nat.succ_le_of_lt h)⟩
  | 0, h => by
    rw [chain_zero]
    refine (pay5_apply (iblk m c 0 ⟨0, h⟩) (iblk m c 1 ⟨0, h⟩) (iblk m c 2 ⟨0, h⟩) (k0_pay2 (F := Ideal)) i).trans ?_
    rw [pay2_apply, zero_add, Fin.sum_univ_one]
    rfl
  | n + 1, h => by
    rw [chain_succ]
    refine (pay5_apply (iblk m c 0 ⟨n + 1, h⟩) (iblk m c 1 ⟨n + 1, h⟩) (iblk m c 2 ⟨n + 1, h⟩) (chain m c n (Nat.lt_of_succ_lt h)).1 i).trans ?_
    rw [chain_fst c i n (Nat.lt_of_succ_lt h)]
    refine Eq.trans ?_ (Fin.sum_univ_castSucc _).symm
    rfl

/-- And the mask accumulator the sum of the mask blocks' sums. -/
theorem chain_snd (c : Dev nD) (i : S1x1.Idx) : ∀ (n : ℕ) (h : n < cfg0.N),
    (chain m c n h).2 i = ∑ t : Fin (n + 1), maskBlk m c ⟨t.val, lt_of_lt_of_le t.isLt (Nat.succ_le_of_lt h)⟩
  | 0, h => by
    rw [chain_zero]
    refine (pay1_apply (iblk m c 2 ⟨0, h⟩) (k0_pay3 (F := Ideal)) i).trans ?_
    rw [pay3_apply, zero_add, Fin.sum_univ_one]
    rfl
  | n + 1, h => by
    rw [chain_succ]
    refine (pay1_apply (iblk m c 2 ⟨n + 1, h⟩) (chain m c n (Nat.lt_of_succ_lt h)).2 i).trans ?_
    rw [chain_snd c i n (Nat.lt_of_succ_lt h)]
    refine Eq.trans ?_ (Fin.sum_univ_castSucc _).symm
    rfl

/-- The three arrays the region finds — predictions, target map, mask — as functions into the extended reals. -/
abbrev predArr (c : Dev nD) : SP.Idx → EReal := V m c main_arg0
abbrev tmapArr (c : Dev nD) : SP.Idx → EReal := V m c main_v52
abbrev maskArr (c : Dev nD) : SM.Idx → EReal := V m c main_v77

/-- The summand of the loss over the whole array, of the arrays the region finds. -/
def lossAt (c : Dev nD) (j : SP.Idx) : EReal :=
  term (predArr m c j) (tmapArr m c j) * maskArr m c (chan0 j)

/-- A point's masked smooth-L1 block sum is the sum of that summand over the block's places. -/
theorem lossBlk_eq (c : Dev nD) (t : Fin cfg0.N) : lossBlk m c t = ∑ y : SBP.Idx, lossAt m c (bidxP (t64 t) y) := by
  unfold lossBlk lossAt
  refine Finset.sum_congr rfl fun y _ => ?_
  rw [iblk0_apply, iblk1_apply, iblk2_apply, chan0_bidxP]

/-- A point's mask block sum is the sum of the mask over the block's places. -/
theorem maskBlk_eq (c : Dev nD) (t : Fin cfg0.N) : maskBlk m c t = ∑ z : SBM.Idx, maskArr m c (bidxM (t64 t) z) := by
  unfold maskBlk
  refine Finset.sum_congr rfl fun z _ => ?_
  rw [iblk2_apply]

/-- THE LOSS TOTAL: the weighted smooth-L1 sum over the whole array. -/
theorem lossAcc_total (c : Dev nD) (i : S1x1.Idx) : lossAcc m c i = ∑ j : SP.Idx, lossAt m c j := by
  refine (chain_fst m c i 63 tLast.isLt).trans ?_
  refine Eq.trans ?_ (sum_blocksP (lossAt m c))
  refine Finset.sum_congr rfl fun t _ => ?_
  exact lossBlk_eq m c _

/-- THE MASK TOTAL: the sum of the whole mask. -/
theorem maskAcc_total (c : Dev nD) (i : S1x1.Idx) : maskAcc m c i = ∑ j : SM.Idx, maskArr m c j := by
  refine (chain_snd m c i 63 tLast.isLt).trans ?_
  refine Eq.trans ?_ (sum_blocksM (maskArr m c))
  refine Finset.sum_congr rfl fun t _ => ?_
  exact maskBlk_eq m c _

end Cert.KernelIdeal.Frm

end
-- ==== Proof.KernelIdeal.Targets.lean ====
/-
  The target map and the mask the region finds are the reference's.

  Before its region the kernel's @main builds the target map and the mask from the targets by the same host
  operations, in the same order, as the reference does (the two grid coordinates of every target — scale by five,
  floor, clamp to [0, 399], convert —, the index tuples, the two scatters). So the buffer the region's window 1 stages
  holds the reference's target-map stage of the launch targets, and window 2's the reference's mask stage: the same
  composed function of the one array they read, never opened here beyond that identification.
-/
import proofs.«151133_j29283087024791_1_alg».proof.Proof.KernelIdeal.Entry
import proofs.«151133_j29283087024791_1_alg».proof.Proof.Gen.ReferenceIdeal.Read
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

set_option maxHeartbeats 40000000 in
set_option maxRecDepth 65536 in
/-- The target map the region finds is the reference's target-map stage of the launch targets: the host operations
    before the region, composed, are that stage's own operations of the one array they read. -/
theorem V_targetMap (c : Dev nD) :
    V m c main_v52 = Cert.ReferenceIdeal.Read.val_main_v52 (F := F) (m ((c.tc : Thread nD τ).loc main_arg1)) := by
  dsimp only [V, V0]
  simp only [hostOps0, hostOps0_1, hostOps0_2, hostOps0_3, hostOps0_4, List.flatten_cons, List.flatten_nil, List.append_nil, List.cons_append, List.nil_append]
  open Idealize.ShloMosaic.StableHlo in after_results_simp
  rfl

set_option maxHeartbeats 40000000 in
set_option maxRecDepth 65536 in
/-- The mask the region finds is the reference's mask stage of the launch targets. -/
theorem V_mask (c : Dev nD) :
    V m c main_v77 = Cert.ReferenceIdeal.Read.val_main_v77 (F := F) (m ((c.tc : Thread nD τ).loc main_arg1)) := by
  dsimp only [V, V0]
  simp only [hostOps0, hostOps0_1, hostOps0_2, hostOps0_3, hostOps0_4, List.flatten_cons, List.flatten_nil, List.append_nil, List.cons_append, List.nil_append]
  open Idealize.ShloMosaic.StableHlo in after_results_simp
  rfl

end Cert.KernelIdeal.Frm

end
-- ==== Proof.ReferenceValue.lean ====
/-
  The reference's two sums in the specification's words.

  The reference builds the target map and the mask by two scatters of the targets (the stages the generated read-back
  names `val_main_v52` and `val_main_v77`: functions of the targets alone, never opened here), takes the smooth-L1 term
  of every prediction against the target map, multiplies by the mask broadcast over the seven channels and sums over
  the whole array from zero; and sums the mask over its whole array from zero. Read one operation at a time at an
  index, the first is the specification's weighted sum of `term` and the second the plain sum of the mask.
-/
import proofs.«151133_j29283087024791_1_alg».proof.Defs
import proofs.«151133_j29283087024791_1_alg».proof.Proof.Gen.ReferenceIdeal.Run
import proofs.«151133_j29283087024791_1_alg».proof.Proof.Gen.ReferenceIdeal.Read
import proofs.«151133_j29283087024791_1_alg».proof.Proof.Spec
import Idealize.ShloMosaic.Lib.ValueIdx

noncomputable section

namespace Cert.ReferenceIdeal.RefValue

open Cert.ReferenceIdeal Cert.ReferenceIdeal.Gen Cert.ReferenceIdeal.Read SmoothL1Spec
open Idealize.ShloMosaic Idealize.ShloMosaic.ValueIdx
open scoped BigOperators

/-- The broadcast of the mask over the seven channels reads the mask at the same image, row and column, in its one
    channel: the index the specification calls `chan0`. -/
private theorem idx_v89_eq_chan0 (j : S32x7x400x400.Idx) : idx_main_v89 j = chan0 j := by
  funext a
  match a with
  | ⟨0, _⟩ => rfl
  | ⟨1, _⟩ => rfl
  | ⟨2, _⟩ => rfl
  | ⟨3, _⟩ => rfl

/-- One summand of the loss numerator: with `d` the prediction less the target-map element, the reference selects, on
    `|d| < 1`, between `(1/2 * d) * d` and `|d| - 1/2`, where `|d|` is `max d (-d)` on the extended reals, and multiplies
    by the broadcast mask. That is the specification's `term` times the mask at `chan0 j`. -/
private theorem summand_eq (x0 : (⟨S32x7x400x400, .f32⟩ : BufTy).Contents (Elt Ideal)) (x1 : (⟨S32x64x7, .f32⟩ : BufTy).Contents (Elt Ideal))
    (j : S32x7x400x400.Idx) :
    val_main_v90 (F := Ideal) x0 x1 j
      = term (x0 j) (val_main_v52 (F := Ideal) x1 j) * val_main_v77 (F := Ideal) x1 (chan0 j) := by
  rw [val_main_v90_apply, val_main_v89_apply, idx_v89_eq_chan0, val_main_v87_apply, val_main_v81_apply,
    val_main_v84_apply, val_main_v83_apply, val_main_v86_apply, val_main_v79_apply, val_main_v78_apply,
    val_main_v80_apply, val_main_v82_apply, val_main_v85_apply, val_main_cst_22_apply, val_main_cst_23_apply,
    val_main_cst_24_apply]
  rw [Ideal.hostAbsf_def, Ideal.absf_def, Ideal.cmpf_def, Ideal.ofBits_def, Ideal.ofBits_def, Ideal.subf_def]
  rfl

/-- The reference's loss numerator: the sum over the whole array of the smooth-L1 term of prediction against target
    map, times the mask element of the same image, row and column. -/
theorem lossSum_eq (x0 : (⟨S32x7x400x400, .f32⟩ : BufTy).Contents (Elt Ideal)) (x1 : (⟨S32x64x7, .f32⟩ : BufTy).Contents (Elt Ideal)) (i : S_.Idx) :
    val_main_v91 (F := Ideal) x0 x1 i
      = ∑ j : S32x7x400x400.Idx, term (x0 j) (val_main_v52 (F := Ideal) x1 j) * val_main_v77 (F := Ideal) x1 (chan0 j) := by
  -- The sum starts from the zero word, which is the real number zero.
  rw [val_main_v91_apply, val_main_cst_26_apply, Ideal.ofBits_def, Ideal.ofBits_zero_f32, zero_add]
  exact Finset.sum_congr rfl fun j _ => summand_eq x0 x1 j

/-- The reference's count: the sum of the mask over its whole array. -/
theorem maskSum_eq (x1 : (⟨S32x64x7, .f32⟩ : BufTy).Contents (Elt Ideal)) (i : S_.Idx) :
    val_main_v88 (F := Ideal) x1 i = ∑ j : S32x1x400x400.Idx, val_main_v77 (F := Ideal) x1 j := by
  -- The sum starts from the zero word, which is the real number zero.
  rw [val_main_v88_apply, val_main_cst_25_apply, Ideal.ofBits_def, Ideal.ofBits_zero_f32, zero_add]

end Cert.ReferenceIdeal.RefValue

end
-- ==== Proof.KernelIdeal.Bridge.lean ====
/-
  The kernel's two returned values are the reference's.

  The count the kernel returns is its mask total read as a scalar; the reference's is the sum of the mask over its
  whole array, and the mask the kernel's region finds is the reference's mask stage of the same targets: one sum. The
  loss the kernel returns is its loss total read as a scalar over the count plus the epsilon; the reference's is its
  weighted smooth-L1 sum over its count plus the same epsilon word, by the same host division and the same host
  addition: so it is enough that the two loss totals are one sum — the specification's weighted sum of the smooth-L1
  term over the whole array, of the same predictions, the same target map and the same mask. Neither the division nor
  the addition nor the two scatters is ever opened.
-/
import proofs.«151133_j29283087024791_1_alg».proof.Proof.KernelIdeal.Total
import proofs.«151133_j29283087024791_1_alg».proof.Proof.KernelIdeal.Targets
import proofs.«151133_j29283087024791_1_alg».proof.Proof.ReferenceValue
import Idealize.ShloMosaic.Lib.Pipeline.Value
import Idealize.ShloMosaic.Lib.ValueIdx

set_option maxRecDepth 16384

noncomputable section

namespace Cert.KernelIdeal.Frm

open Cert.KernelIdeal Cert.KernelIdeal.Gen SmoothL1Spec
open Cert.ReferenceIdeal.Read Cert.ReferenceIdeal.RefValue
open Idealize.ShloMosaic Idealize.ShloMosaic.TcCoe Idealize.ShloMosaic.ValueIdx
open Idealize.SL Idealize.SL.Sem
open scoped BigOperators

variable (m : (ℓ : Loc nD τ sig) → Buf (Elt Ideal) ℓ)

/-- A one-element [1, 1] array read as a scalar is its one element. -/
theorem scalar_of_S1x1 (X : S1x1.Idx → EReal) (j : S_.Idx) : shapeCast S_ X shapeCasts_S1x1_S_ j = X (ix2 0 0) := by
  rw [eq_ix0 j]
  exact shapeCast_apply X shapeCasts_S1x1_S_ ix0 (ix2 0 0) (by decide +kernel)

/-- The returned count at its index: the mask total. -/
theorem countOut_apply (c : Dev nD) (j : S_.Idx) : countOut m c j = maskAcc m c (ix2 0 0) :=
  scalar_of_S1x1 (maskAcc m c) j
/-- The returned loss at its index: the host quotient of the loss total by the mask total plus the epsilon. -/
theorem lossOut_apply (c : Dev nD) (j : S_.Idx) :
    (lossOut m c j : EReal) = FloatOps.hostDivf (F := Ideal) (φ := .f32) (lossAcc m c (ix2 0 0) : EReal)
      (FloatOps.addf (F := Ideal) (φ := .f32) (maskAcc m c (ix2 0 0) : EReal) (FloatOps.ofBits (F := Ideal) .f32 0x358637BD#32)) := by
  show FloatOps.hostDivf (F := Ideal) (φ := .f32) (shapeCast S_ (lossAcc m c) shapeCasts_S1x1_S_ j : EReal)
      (FloatOps.addf (F := Ideal) (φ := .f32) (shapeCast S_ (maskAcc m c) shapeCasts_S1x1_S_ j : EReal) (FloatOps.ofBits (F := Ideal) .f32 0x358637BD#32)) = _
  rw [scalar_of_S1x1, scalar_of_S1x1]

/-- The kernel's mask total is the reference's count. -/
theorem maskAcc_ref (c : Dev nD) (i : S1x1.Idx) (j : Cert.ReferenceIdeal.S_.Idx) :
    maskAcc m c i = val_main_v88 (F := Ideal) (m ((c.tc : Thread nD τ).loc main_arg1)) j := by
  rw [maskAcc_total, maskSum_eq]
  unfold maskArr
  rw [V_mask]

/-- The kernel's loss total is the reference's loss numerator. -/
theorem lossAcc_ref (c : Dev nD) (i : S1x1.Idx) (j : Cert.ReferenceIdeal.S_.Idx) :
    lossAcc m c i = val_main_v91 (F := Ideal) (m ((c.tc : Thread nD τ).loc main_arg0)) (m ((c.tc : Thread nD τ).loc main_arg1)) j := by
  rw [lossAcc_total, lossSum_eq]
  unfold lossAt predArr tmapArr maskArr
  rw [V_main_arg0, V_targetMap, V_mask]

/-- THE COUNT: what the kernel returns as the count is the reference's count stage of the launch targets. -/
theorem countOut_eq (c : Dev nD) :
    countOut m c = val_main_v88 (F := Ideal) (m ((c.tc : Thread nD τ).loc main_arg1)) := by
  funext j
  rw [countOut_apply]
  exact maskAcc_ref m c _ j

/-- THE LOSS: what the kernel returns as the loss is the reference's loss stage of the launch arguments. -/
theorem lossOut_eq (c : Dev nD) :
    lossOut m c = val_main_v93 (F := Ideal) (m ((c.tc : Thread nD τ).loc main_arg0)) (m ((c.tc : Thread nD τ).loc main_arg1)) := by
  funext j
  rw [lossOut_apply, val_main_v93_apply, val_main_v92_apply, val_main_cst_27_apply,
    lossAcc_ref m c (ix2 0 0) j, maskAcc_ref m c (ix2 0 0) j]

end Cert.KernelIdeal.Frm

end
-- ==== Proof.lean ====
/-
  The certificate: a masked smooth-L1 detection loss computed block by block in one grid kernel, against its whole-array
  reference.

  Both programs build, by the same host operations, a target map and a mask from the targets (two scatters), and
  return the loss — the sum over [32, 7, 400, 400] of the smooth-L1 term of prediction against target map, times the
  mask broadcast over the seven channels, divided by the mask's sum plus an epsilon — and that mask sum. The reference
  sums the whole arrays at once. The kernel walks 64 grid points, half an image each, keeps two one-element
  accumulators that it zeroes at the first point and adds each block's two sums to, and writes them back after the
  last; the division is done on the host after the region.

  frame (word-level kernel, idealized kernel): the region's frame is proved for any float instance — the body run once
  for the first point and once for a later point, the accumulators carried from point to point, the host operations
  around the region run by the library — and cited at each instance. frame (reference): its generated run, the results
  dropped. preserves: the ideal pass rewrote nothing. algebraic: on the extended reals the accumulators after the
  last point are the two whole-array sums (sums may be regrouped freely there, so nothing is asked of the inputs
  beyond what the statement already assumes), and the kernel's arrays are the reference's stages; so both returned
  values are the reference's.
-/
import proofs.«151133_j29283087024791_1_alg».proof.Defs
import proofs.«151133_j29283087024791_1_alg».proof.Proof.Gen.Kernel
import proofs.«151133_j29283087024791_1_alg».proof.Proof.Gen.KernelIdeal
import proofs.«151133_j29283087024791_1_alg».proof.Proof.Gen.ReferenceIdeal
import proofs.«151133_j29283087024791_1_alg».proof.Proof.Gen.Pre_finite_inputs
import proofs.«151133_j29283087024791_1_alg».proof.Proof.Gen.ReferenceIdeal.Run
import proofs.«151133_j29283087024791_1_alg».proof.Proof.Gen.ReferenceIdeal.Read
import proofs.«151133_j29283087024791_1_alg».proof.Proof.Kernel.Accum
import proofs.«151133_j29283087024791_1_alg».proof.Proof.KernelIdeal.Accum
import proofs.«151133_j29283087024791_1_alg».proof.Proof.KernelIdeal.Result
import proofs.«151133_j29283087024791_1_alg».proof.Proof.KernelIdeal.Bridge
import Idealize.ShloMosaic.Adequacy
import Idealize.ShloMosaic.Init

noncomputable section

namespace Cert.Proof

open Idealize.ShloMosaic Idealize.SL.Sem

/-- The word-level kernel runs to the end, faults nowhere and leaves both arguments as launched. -/
theorem frame_k : Cert.frame_Kernel := fun m ρ _ => Cert.Kernel.Frm.frame m ρ
/-- So does the idealized kernel. -/
theorem frame_ki : Cert.frame_KernelIdeal := fun m ρ _ => Cert.KernelIdeal.Frm.frame m ρ
/-- And the reference: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- On the extended reals, from memories that agree on the two arguments, both programs end with the same loss and
    the same count: the kernel's are its two totals through the host tail, which are the reference's two stages. -/
theorem algebraic : Cert.algebraic_KernelIdeal_ReferenceIdeal := by
  intro m ρ m' ρ' _ hagree
  refine ⟨fun c => Cert.KernelIdeal.Frm.lossOut m c, fun c => Cert.KernelIdeal.Frm.countOut m c,
    Cert.KernelIdeal.Frm.run_values m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · rw [Cert.ReferenceIdeal.Read.val_main_v93_eq, (hagree c).1, (hagree c).2]
    exact (Cert.KernelIdeal.Frm.lossOut_eq m c).symm
  · rw [Cert.ReferenceIdeal.Read.val_main_v88_eq, (hagree c).2]
    exact (Cert.KernelIdeal.Frm.countOut_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
